-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S128x1024 : Shape := ⟨2, ![128, 1024]⟩
abbrev S128 : Shape := ⟨1, ![128]⟩
abbrev S256x16 : Shape := ⟨2, ![256, 16]⟩
abbrev S256 : Shape := ⟨1, ![256]⟩
abbrev S8x32 : Shape := ⟨2, ![8, 32]⟩
abbrev S8 : Shape := ⟨1, ![8]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_
  bcast_S_S8x32 : S_.BroadcastsInDim S8x32 (![] : Fin 0 → Fin S8x32.rank)
  reducesTo_S8x32_S_d0_1 : S8x32.ReducesTo [0, 1] S_
  bcast_S_S8 : S_.BroadcastsInDim S8 (![] : Fin 0 → Fin S8.rank)
  reducesTo_S8_S_d0 : S8.ReducesTo [0] S_
  bcast_S_S65536 : S_.BroadcastsInDim S65536 (![] : Fin 0 → Fin S65536.rank)
  reducesTo_S65536_S_d0 : S65536.ReducesTo [0] S_

variable [Facts]

def fn_part2 {F : FTy → Type} [FloatOps F] (main_arg1 : IVec S65536 32) (main_v33 : IVec S_ 1) : IVec S_ 1 :=
  let main_c_12 : IVec S_ 32 := constantI S_ 32 0#32
  let main_v34 : IVec S65536 32 := broadcastInDim S65536 ![] bcast_S_S65536 main_c_12
  let main_v35 : IVec S65536 1 := cmpi .sge main_arg1 main_v34
  let main_c_13 : IVec S_ 1 := constantI S_ 1 1#1
  let main_v36 : IVec S_ 1 := (fun x v => Host.reduce IntOp.andi x v reducesTo_S65536_S_d0 h_S_) main_v35 main_c_13
  let main_v37 : IVec S_ 1 := andi main_v33 main_v36
  let main_c_14 : IVec S_ 32 := constantI S_ 32 8#32
  let main_v38 : IVec S65536 32 := broadcastInDim S65536 ![] bcast_S_S65536 main_c_14
  let main_v39 : IVec S65536 1 := cmpi .slt main_arg1 main_v38
  let main_c_15 : IVec S_ 1 := constantI S_ 1 1#1
  let main_v40 : IVec S_ 1 := (fun x v => Host.reduce IntOp.andi x v reducesTo_S65536_S_d0 h_S_) main_v39 main_c_15
  let main_v41 : IVec S_ 1 := andi main_v37 main_v40
  main_v41

def fn_part1 {F : FTy → Type} [FloatOps F] (main_arg1 : IVec S65536 32) (main_arg5 : FVec F S256 .f32) (main_arg6 : FVec F S8x32 .f32) (main_arg7 : FVec F S8 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S8x32 .f32 := Host.absf main_arg6
  let main_cst_8 : FVec F S_ .f32 := constant S_ .f32 0x7F800000#32
  let main_v25 : FVec F S8x32 .f32 := broadcastInDim S8x32 ![] bcast_S_S8x32 main_cst_8
  let main_v26 : IVec S8x32 1 := cmpf .olt main_v24 main_v25
  let main_c_9 : IVec S_ 1 := constantI S_ 1 1#1
  let main_v27 : IVec S_ 1 := (fun x v => Host.reduce IntOp.andi x v reducesTo_S8x32_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg1 main_v33

def fn {F : FTy → Type} [FloatOps F] (main_arg0 : FVec F S65536x1024 .f32) (main_arg1 : IVec S65536 32) (main_arg2 : FVec F S128x1024 .f32) (main_arg3 : FVec F S128 .f32) (main_arg4 : FVec F S256x16 .f32) (main_arg5 : FVec F S256 .f32) (main_arg6 : FVec F S8x32 .f32) (main_arg7 : FVec F S8 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S128x1024 .f32 := Host.absf main_arg2
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x16 .f32 := Host.absf main_arg4
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg1 main_arg5 main_arg6 main_arg7 main_v13 main_v16
-- ==== Kernel.lean ====
abbrev S65536x1024 : Shape := ⟨2, ![65536, 1024]⟩
abbrev S65536 : Shape := ⟨1, ![65536]⟩
abbrev S128x1024 : Shape := ⟨2, ![128, 1024]⟩
abbrev S128 : Shape := ⟨1, ![128]⟩
abbrev S256x16 : Shape := ⟨2, ![256, 16]⟩
abbrev S256 : Shape := ⟨1, ![256]⟩
abbrev S8x32 : Shape := ⟨2, ![8, 32]⟩
abbrev S8 : Shape := ⟨1, ![8]⟩
abbrev S_ : Shape := ⟨0, ![]⟩
abbrev S32x1x2048 : Shape := ⟨3, ![32, 1, 2048]⟩
abbrev S1024x128 : Shape := ⟨2, ![1024, 128]⟩
abbrev S8x32x16 : Shape := ⟨3, ![8, 32, 16]⟩
abbrev S8x16x32 : Shape := ⟨3, ![8, 16, 32]⟩
abbrev S8x16x8x32 : Shape := ⟨4, ![8, 16, 8, 32]⟩
abbrev S1x16x32 : Shape := ⟨3, ![1, 16, 32]⟩
abbrev S16x32 : Shape := ⟨2, ![16, 32]⟩
abbrev S1 : Shape := ⟨1, ![1]⟩
abbrev S2 : Shape := ⟨1, ![2]⟩
abbrev S128x256 : Shape := ⟨2, ![128, 256]⟩
abbrev S8x1x32 : Shape := ⟨3, ![8, 1, 32]⟩
abbrev S8x32x1 : Shape := ⟨3, ![8, 32, 1]⟩
abbrev S8x32x8x1 : Shape := ⟨4, ![8, 32, 8, 1]⟩
abbrev S1x32x1 : Shape := ⟨3, ![1, 32, 1]⟩
abbrev S32x1 : Shape := ⟨2, ![32, 1]⟩
abbrev S256x8 : Shape := ⟨2, ![256, 8]⟩
abbrev S2048x1024 : Shape := ⟨2, ![2048, 1024]⟩
abbrev S1x1x2048 : Shape := ⟨3, ![1, 1, 2048]⟩
abbrev S2048x128 : Shape := ⟨2, ![2048, 128]⟩
abbrev S1x128 : Shape := ⟨2, ![1, 128]⟩
abbrev S2048x256 : Shape := ⟨2, ![2048, 256]⟩
abbrev S1x256 : Shape := ⟨2, ![1, 256]⟩
abbrev S2048x8 : Shape := ⟨2, ![2048, 8]⟩
abbrev S1x8 : Shape := ⟨2, ![1, 8]⟩
abbrev S8x2048 : Shape := ⟨2, ![8, 2048]⟩
abbrev S1x2048 : Shape := ⟨2, ![1, 2048]⟩
abbrev S2048 : Shape := ⟨1, ![2048]⟩
abbrev S65536x1 : Shape := ⟨2, ![65536, 1]⟩

abbrev nBuf : Space → Nat
  | .hbm => 161
  | .vmem => 12
  | .smem => 0
  | _ => 0

abbrev hbmTy0_0 (i : Nat) : BufTy := match i % 128 with
  | 0 => ⟨S65536x1024, .f32⟩
  | 1 => ⟨S65536, .i32⟩
  | 2 => ⟨S128x1024, .f32⟩
  | 3 => ⟨S128, .f32⟩
  | 4 => ⟨S256x16, .f32⟩
  | 5 => ⟨S256, .f32⟩
  | 6 => ⟨S8x32, .f32⟩
  | 7 => ⟨S8, .f32⟩
  | 8 => ⟨S_, .i32⟩
  | 9 => ⟨S_, .i32⟩
  | 10 => ⟨S_, .i32⟩
  | 11 => ⟨S65536, .i32⟩
  | 12 => ⟨S65536, .i32⟩
  | 13 => ⟨S_, .i32⟩
  | 14 => ⟨S65536, .i32⟩
  | 15 => ⟨S65536, .i32⟩
  | 16 => ⟨S32x1x2048, .i32⟩
  | 17 => ⟨S1024x128, .f32⟩
  | 18 => ⟨S1024x128, .bf16⟩
  | 19 => ⟨S8x32x16, .f32⟩
  | 20 => ⟨S8x16x32, .f32⟩
  | 21 => ⟨S_, .f32⟩
  | 22 => ⟨S8x16x8x32, .f32⟩
  | 23 => ⟨S1x16x32, .f32⟩
  | 24 => ⟨S16x32, .f32⟩
  | 25 => ⟨S_, .i32⟩
  | 26 => ⟨S1, .i32⟩
  | 27 => ⟨S_, .i32⟩
  | 28 => ⟨S1, .i32⟩
  | 29 => ⟨S2, .i32⟩
  | 30 => ⟨S8x16x8x32, .f32⟩
  | 31 => ⟨S1x16x32, .f32⟩
  | 32 => ⟨S16x32, .f32⟩
  | 33 => ⟨S_, .i32⟩
  | 34 => ⟨S1, .i32⟩
  | 35 => ⟨S_, .i32⟩
  | 36 => ⟨S1, .i32⟩
  | 37 => ⟨S2, .i32⟩
  | 38 => ⟨S8x16x8x32, .f32⟩
  | 39 => ⟨S1x16x32, .f32⟩
  | 40 => ⟨S16x32, .f32⟩
  | 41 => ⟨S_, .i32⟩
  | 42 => ⟨S1, .i32⟩
  | 43 => ⟨S_, .i32⟩
  | 44 => ⟨S1, .i32⟩
  | 45 => ⟨S2, .i32⟩
  | 46 => ⟨S8x16x8x32, .f32⟩
  | 47 => ⟨S1x16x32, .f32⟩
  | 48 => ⟨S16x32, .f32⟩
  | 49 => ⟨S_, .i32⟩
  | 50 => ⟨S1, .i32⟩
  | 51 => ⟨S_, .i32⟩
  | 52 => ⟨S1, .i32⟩
  | 53 => ⟨S2, .i32⟩
  | 54 => ⟨S8x16x8x32, .f32⟩
  | 55 => ⟨S1x16x32, .f32⟩
  | 56 => ⟨S16x32, .f32⟩
  | 57 => ⟨S_, .i32⟩
  | 58 => ⟨S1, .i32⟩
  | 59 => ⟨S_, .i32⟩
  | 60 => ⟨S1, .i32⟩
  | 61 => ⟨S2, .i32⟩
  | 62 => ⟨S8x16x8x32, .f32⟩
  | 63 => ⟨S1x16x32, .f32⟩
  | 64 => ⟨S16x32, .f32⟩
  | 65 => ⟨S_, .i32⟩
  | 66 => ⟨S1, .i32⟩
  | 67 => ⟨S_, .i32⟩
  | 68 => ⟨S1, .i32⟩
  | 69 => ⟨S2, .i32⟩
  | 70 => ⟨S8x16x8x32, .f32⟩
  | 71 => ⟨S1x16x32, .f32⟩
  | 72 => ⟨S16x32, .f32⟩
  | 73 => ⟨S_, .i32⟩
  | 74 => ⟨S1, .i32⟩
  | 75 => ⟨S_, .i32⟩
  | 76 => ⟨S1, .i32⟩
  | 77 => ⟨S2, .i32⟩
  | 78 => ⟨S8x16x8x32, .f32⟩
  | 79 => ⟨S1x16x32, .f32⟩
  | 80 => ⟨S16x32, .f32⟩
  | 81 => ⟨S_, .i32⟩
  | 82 => ⟨S1, .i32⟩
  | 83 => ⟨S_, .i32⟩
  | 84 => ⟨S1, .i32⟩
  | 85 => ⟨S2, .i32⟩
  | 86 => ⟨S8x16x8x32, .f32⟩
  | 87 => ⟨S128x256, .f32⟩
  | 88 => ⟨S128x256, .bf16⟩
  | 89 => ⟨S8x1x32, .f32⟩
  | 90 => ⟨S8x32x1, .f32⟩
  | 91 => ⟨S_, .f32⟩
  | 92 => ⟨S8x32x8x1, .f32⟩
  | 93 => ⟨S1x32x1, .f32⟩
  | 94 => ⟨S32x1, .f32⟩
  | 95 => ⟨S_, .i32⟩
  | 96 => ⟨S1, .i32⟩
  | 97 => ⟨S_, .i32⟩
  | 98 => ⟨S1, .i32⟩
  | 99 => ⟨S2, .i32⟩
  | 100 => ⟨S8x32x8x1, .f32⟩
  | 101 => ⟨S1x32x1, .f32⟩
  | 102 => ⟨S32x1, .f32⟩
  | 103 => ⟨S_, .i32⟩
  | 104 => ⟨S1, .i32⟩
  | 105 => ⟨S_, .i32⟩
  | 106 => ⟨S1, .i32⟩
  | 107 => ⟨S2, .i32⟩
  | 108 => ⟨S8x32x8x1, .f32⟩
  | 109 => ⟨S1x32x1, .f32⟩
  | 110 => ⟨S32x1, .f32⟩
  | 111 => ⟨S_, .i32⟩
  | 112 => ⟨S1, .i32⟩
  | 113 => ⟨S_, .i32⟩
  | 114 => ⟨S1, .i32⟩
  | 115 => ⟨S2, .i32⟩
  | 116 => ⟨S8x32x8x1, .f32⟩
  | 117 => ⟨S1x32x1, .f32⟩
  | 118 => ⟨S32x1, .f32⟩
  | 119 => ⟨S_, .i32⟩
  | 120 => ⟨S1, .i32⟩
  | 121 => ⟨S_, .i32⟩
  | 122 => ⟨S1, .i32⟩
  | 123 => ⟨S2, .i32⟩
  | 124 => ⟨S8x32x8x1, .f32⟩
  | 125 => ⟨S1x32x1, .f32⟩
  | 126 => ⟨S32x1, .f32⟩
  | 127 => ⟨S_, .i32⟩
  | _ => ⟨S65536x1024, .f32⟩

abbrev hbmTy0_1 (i : Nat) : BufTy := match i % 128 with
  | 0 => ⟨S1, .i32⟩
  | 1 => ⟨S_, .i32⟩
  | 2 => ⟨S1, .i32⟩
  | 3 => ⟨S2, .i32⟩
  | 4 => ⟨S8x32x8x1, .f32⟩
  | 5 => ⟨S1x32x1, .f32⟩
  | 6 => ⟨S32x1, .f32⟩
  | 7 => ⟨S_, .i32⟩
  | 8 => ⟨S1, .i32⟩
  | 9 => ⟨S_, .i32⟩
  | 10 => ⟨S1, .i32⟩
  | 11 => ⟨S2, .i32⟩
  | 12 => ⟨S8x32x8x1, .f32⟩
  | 13 => ⟨S1x32x1, .f32⟩
  | 14 => ⟨S32x1, .f32⟩
  | 15 => ⟨S_, .i32⟩
  | 16 => ⟨S1, .i32⟩
  | 17 => ⟨S_, .i32⟩
  | 18 => ⟨S1, .i32⟩
  | 19 => ⟨S2, .i32⟩
  | 20 => ⟨S8x32x8x1, .f32⟩
  | 21 => ⟨S1x32x1, .f32⟩
  | 22 => ⟨S32x1, .f32⟩
  | 23 => ⟨S_, .i32⟩
  | 24 => ⟨S1, .i32⟩
  | 25 => ⟨S_, .i32⟩
  | 26 => ⟨S1, .i32⟩
  | 27 => ⟨S2, .i32⟩
  | 28 => ⟨S8x32x8x1, .f32⟩
  | 29 => ⟨S256x8, .f32⟩
  | 30 => ⟨S256x8, .bf16⟩
  | 31 => ⟨S32x1x2048, .f32⟩
  | 32 => ⟨S65536x1, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | .local _ .vmem, ⟨0, _⟩ => ⟨S2048x1024, .f32⟩
  | .local _ .vmem, ⟨1, _⟩ => ⟨S2048x1024, .f32⟩
  | .local _ .vmem, ⟨2, _⟩ => ⟨S1x1x2048, .i32⟩
  | .local _ .vmem, ⟨3, _⟩ => ⟨S1x1x2048, .i32⟩
  | .local _ .vmem, ⟨4, _⟩ => ⟨S1024x128, .bf16⟩
  | .local _ .vmem, ⟨5, _⟩ => ⟨S128, .f32⟩
  | .local _ .vmem, ⟨6, _⟩ => ⟨S128x256, .bf16⟩
  | .local _ .vmem, ⟨7, _⟩ => ⟨S256, .f32⟩
  | .local _ .vmem, ⟨8, _⟩ => ⟨S256x8, .bf16⟩
  | .local _ .vmem, ⟨9, _⟩ => ⟨S8, .f32⟩
  | .local _ .vmem, ⟨10, _⟩ => ⟨S1x1x2048, .f32⟩
  | .local _ .vmem, ⟨11, _⟩ => ⟨S1x1x2048, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_7 : Ref sig .tc := ⟨.hbm, 49, rfl⟩
abbrev main_v27 : Ref sig .tc := ⟨.hbm, 50, rfl⟩
abbrev main_c_8 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_9 : Ref sig .tc := ⟨.hbm, 57, rfl⟩
abbrev main_v33 : Ref sig .tc := ⟨.hbm, 58, rfl⟩
abbrev main_c_10 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_11 : Ref sig .tc := ⟨.hbm, 65, rfl⟩
abbrev main_v39 : Ref sig .tc := ⟨.hbm, 66, rfl⟩
abbrev main_c_12 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_13 : Ref sig .tc := ⟨.hbm, 73, rfl⟩
abbrev main_v45 : Ref sig .tc := ⟨.hbm, 74, rfl⟩
abbrev main_c_14 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_15 : Ref sig .tc := ⟨.hbm, 81, rfl⟩
abbrev main_v51 : Ref sig .tc := ⟨.hbm, 82, rfl⟩
abbrev main_c_16 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_17 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_18 : Ref sig .tc := ⟨.hbm, 95, rfl⟩
abbrev main_v62 : Ref sig .tc := ⟨.hbm, 96, rfl⟩
abbrev main_c_19 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_20 : Ref sig .tc := ⟨.hbm, 103, rfl⟩
abbrev main_v68 : Ref sig .tc := ⟨.hbm, 104, rfl⟩
abbrev main_c_21 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_22 : Ref sig .tc := ⟨.hbm, 111, rfl⟩
abbrev main_v74 : Ref sig .tc := ⟨.hbm, 112, rfl⟩
abbrev main_c_23 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_24 : Ref sig .tc := ⟨.hbm, 119, rfl⟩
abbrev main_v80 : Ref sig .tc := ⟨.hbm, 120, rfl⟩
abbrev main_c_25 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_c_26 : Ref sig .tc := ⟨.hbm, 127, rfl⟩
abbrev main_v86 : Ref sig .tc := ⟨.hbm, 128, rfl⟩
abbrev main_c_27 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_28 : Ref sig .tc := ⟨.hbm, 135, rfl⟩
abbrev main_v92 : Ref sig .tc := ⟨.hbm, 136, rfl⟩
abbrev main_c_29 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_c_30 : Ref sig .tc := ⟨.hbm, 143, rfl⟩
abbrev main_v98 : Ref sig .tc := ⟨.hbm, 144, rfl⟩
abbrev main_c_31 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_c_32 : Ref sig .tc := ⟨.hbm, 151, rfl⟩
abbrev main_v104 : Ref sig .tc := ⟨.hbm, 152, rfl⟩
abbrev main_c_33 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x8 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S65536 : S_.BroadcastsInDim S65536 (![] : Fin 0 → Fin S65536.rank)
  shapeCasts_S65536_S32x1x2048 : S65536.ShapeCasts S32x1x2048
  transposes_S128x1024_S1024x128_1_0 : S128x1024.Transposes [1, 0] S1024x128
  bitsLt_bf16_f32 : FTy.bits .bf16 < FTy.bits .f32
  shapeCasts_S256x16_S8x32x16 : S256x16.ShapeCasts S8x32x16
  transposes_S8x32x16_S8x16x32_0_2_1 : S8x32x16.Transposes [0, 2, 1] S8x16x32
  bcast_S_S8x16x8x32 : S_.BroadcastsInDim S8x16x8x32 (![] : Fin 0 → Fin S8x16x8x32.rank)
  slices_S8x16x32_S1x16x32_0_0_0 : S8x16x32.Slices ![0, 0, 0] S1x16x32
  shapeCasts_S1x16x32_S16x32 : S1x16x32.ShapeCasts S16x32
  bcast_S_S1 : S_.BroadcastsInDim S1 (![] : Fin 0 → Fin S1.rank)
  concatenates_S1_S1_S2_d0 : Shape.Concatenates [S1, S1] S2 0
  slices_S8x16x32_S1x16x32_1_0_0 : S8x16x32.Slices ![1, 0, 0] S1x16x32
  slices_S8x16x32_S1x16x32_2_0_0 : S8x16x32.Slices ![2, 0, 0] S1x16x32
  slices_S8x16x32_S1x16x32_3_0_0 : S8x16x32.Slices ![3, 0, 0] S1x16x32
  slices_S8x16x32_S1x16x32_4_0_0 : S8x16x32.Slices ![4, 0, 0] S1x16x32
  slices_S8x16x32_S1x16x32_5_0_0 : S8x16x32.Slices ![5, 0, 0] S1x16x32
  slices_S8x16x32_S1x16x32_6_0_0 : S8x16x32.Slices ![6, 0, 0] S1x16x32
  slices_S8x16x32_S1x16x32_7_0_0 : S8x16x32.Slices ![7, 0, 0] S1x16x32
  shapeCasts_S8x16x8x32_S128x256 : S8x16x8x32.ShapeCasts S128x256
  shapeCasts_S8x32_S8x1x32 : S8x32.ShapeCasts S8x1x32
  transposes_S8x1x32_S8x32x1_0_2_1 : S8x1x32.Transposes [0, 2, 1] S8x32x1
  bcast_S_S8x32x8x1 : S_.BroadcastsInDim S8x32x8x1 (![] : Fin 0 → Fin S8x32x8x1.rank)
  slices_S8x32x1_S1x32x1_0_0_0 : S8x32x1.Slices ![0, 0, 0] S1x32x1
  shapeCasts_S1x32x1_S32x1 : S1x32x1.ShapeCasts S32x1
  slices_S8x32x1_S1x32x1_1_0_0 : S8x32x1.Slices ![1, 0, 0] S1x32x1
  slices_S8x32x1_S1x32x1_2_0_0 : S8x32x1.Slices ![2, 0, 0] S1x32x1
  slices_S8x32x1_S1x32x1_3_0_0 : S8x32x1.Slices ![3, 0, 0] S1x32x1
  slices_S8x32x1_S1x32x1_4_0_0 : S8x32x1.Slices ![4, 0, 0] S1x32x1
  slices_S8x32x1_S1x32x1_5_0_0 : S8x32x1.Slices ![5, 0, 0] S1x32x1
  slices_S8x32x1_S1x32x1_6_0_0 : S8x32x1.Slices ![6, 0, 0] S1x32x1
  slices_S8x32x1_S1x32x1_7_0_0 : S8x32x1.Slices ![7, 0, 0] S1x32x1
  shapeCasts_S8x32x8x1_S256x8 : S8x32x8x1.ShapeCasts S256x8
  inb_S2048x1024_S2048x1024_0_0 : ∀ a, (![0, 0] : Fin 2 → Nat) a + S2048x1024.size a ≤ S2048x1024.size a
  h_S2048x1024 : 0 < S2048x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S8_S8_0 : ∀ a, (![0] : Fin 1 → Nat) a + S8.size a ≤ S8.size a
  h_S8 : 0 < S8.numel
  shapeCasts_S8_S1x8 : S8.ShapeCasts S1x8
  broadcasts_S1x8_S2048x8 : S1x8.Broadcasts S2048x8
  transposes_S2048x8_p1_0_S8x2048 : S2048x8.Transposes [1, 0] S8x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  shapeCasts_S1x1x2048_S1x2048 : S1x1x2048.ShapeCasts S1x2048
  iota_S8x2048_d0_w32 : S8x2048.Iotas .tc 32 [0]
  broadcasts_S1x2048_S8x2048 : S1x2048.Broadcasts S8x2048
  natLt_1_32 : 1 < 32
  reduces_S8x2048_S2048 : S8x2048.Reduces [0] S2048
  shapeCasts_S2048_S1x2048 : S2048.ShapeCasts S1x2048
  shapeCasts_S1x2048_S1x1x2048 : S1x2048.ShapeCasts S1x1x2048
  shapeCasts_S32x1x2048_S65536x1 : S32x1x2048.ShapeCasts S65536x1
  scatter_S8x16x8x32_S2_S16x32_01_02_02_0_wf : ScatterDims.WF S8x16x8x32 S2 S16x32 [0, 1] [0, 2] [0, 2] 0
  scatter_S8x32x8x1_S2_S32x1_01_02_02_0_wf : ScatterDims.WF S8x32x8x1 S2 S32x1 [0, 1] [0, 2] [0, 2] 0
  dot_S2048x1024_S1024x128_S2048x128_1_0_0_1_n_n_wf : DotDims.WF S2048x1024 S1024x128 S2048x128 [1] [0] [0] [1] [] []
  dot_S2048x128_S128x256_S2048x256_1_0_0_1_n_n_wf : DotDims.WF S2048x128 S128x256 S2048x256 [1] [0] [0] [1] [] []
  dot_S2048x256_S256x8_S2048x8_1_0_0_1_n_n_wf : DotDims.WF S2048x256 S256x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S32x1x2048.size a
  hwx0_1 : ∀ i : grid0.Coords, EltTy.bits .i32 = 32 ∨ (Rect.block (s := S32x1x2048) S1x1x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .bf16 = 32 ∨ (Rect.block (s := S1024x128) S1024x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x8.size a ≤ S256x8.size a
  hwx0_6 : ∀ i : grid0.Coords, EltTy.bits .bf16 = 32 ∨ (Rect.block (s := S256x8) S256x8.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x2048.size a ≤ S32x1x2048.size a
  hwx0_8 : ∀ i : grid0.Coords, EltTy.bits .f32 = 32 ∨ (Rect.block (s := S32x1x2048) S1x1x2048.size (cc0_transform_8 i) (hinb0_8 i)).WholeWords (EltTy.packing .f32)

variable [Facts₀]

def scatter_S8x16x8x32_S2_S16x32_01_02_02_0 : ScatterDims S8x16x8x32 S2 S16x32 where
  updateWindowDims := [0, 1]
  insertedWindowDims := [0, 2]
  scatterDimsToOperandDims := [0, 2]
  indexVectorDim := 0
  wf := scatter_S8x16x8x32_S2_S16x32_01_02_02_0_wf
def scatter_S8x32x8x1_S2_S32x1_01_02_02_0 : ScatterDims S8x32x8x1 S2 S32x1 where
  updateWindowDims := [0, 1]
  insertedWindowDims := [0, 2]
  scatterDimsToOperandDims := [0, 2]
  indexVectorDim := 0
  wf := scatter_S8x32x8x1_S2_S32x1_01_02_02_0_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x8_S2048x8_1_0_0_1_n_n : DotDims S2048x256 S256x8 S2048x8 where
  lhsContracting := [1]
  rhsContracting := [0]
  lhsNonContracting := [0]
  rhsNonContracting := [1]
  lhsBatch := []
  rhsBatch := []
  wf := dot_S2048x256_S256x8_S2048x8_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v56) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v109) S256x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v110) S1x1x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S65536 : Shape := ⟨1, ![65536]⟩
abbrev S128x1024 : Shape := ⟨2, ![128, 1024]⟩
abbrev S128 : Shape := ⟨1, ![128]⟩
abbrev S256x16 : Shape := ⟨2, ![256, 16]⟩
abbrev S256 : Shape := ⟨1, ![256]⟩
abbrev S8x32 : Shape := ⟨2, ![8, 32]⟩
abbrev S8 : Shape := ⟨1, ![8]⟩
abbrev S1024x128 : Shape := ⟨2, ![1024, 128]⟩
abbrev S65536x128 : Shape := ⟨2, ![65536, 128]⟩
abbrev S1x128 : Shape := ⟨2, ![1, 128]⟩
abbrev S65536x8x16 : Shape := ⟨3, ![65536, 8, 16]⟩
abbrev S_ : Shape := ⟨0, ![]⟩
abbrev S65536x1 : Shape := ⟨2, ![65536, 1]⟩
abbrev S65536x2 : Shape := ⟨2, ![65536, 2]⟩
abbrev S65536x16 : Shape := ⟨2, ![65536, 16]⟩
abbrev S16x256 : Shape := ⟨2, ![16, 256]⟩
abbrev S65536x256 : Shape := ⟨2, ![65536, 256]⟩
abbrev S1x256 : Shape := ⟨2, ![1, 256]⟩
abbrev S65536x8x32 : Shape := ⟨3, ![65536, 8, 32]⟩
abbrev S65536x32 : Shape := ⟨2, ![65536, 32]⟩
abbrev S32x8 : Shape := ⟨2, ![32, 8]⟩
abbrev S65536x8 : Shape := ⟨2, ![65536, 8]⟩
abbrev S1x8 : Shape := ⟨2, ![1, 8]⟩
abbrev S65536x8x1 : Shape := ⟨3, ![65536, 8, 1]⟩

abbrev nBuf : Space → Nat
  | .hbm => 97
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S128x1024, .f32⟩
  | .hbm, ⟨3, _⟩ => ⟨S128, .f32⟩
  | .hbm, ⟨4, _⟩ => ⟨S256x16, .f32⟩
  | .hbm, ⟨5, _⟩ => ⟨S256, .f32⟩
  | .hbm, ⟨6, _⟩ => ⟨S8x32, .f32⟩
  | .hbm, ⟨7, _⟩ => ⟨S8, .f32⟩
  | .hbm, ⟨8, _⟩ => ⟨S65536, .i32⟩
  | .hbm, ⟨9, _⟩ => ⟨S1024x128, .f32⟩
  | .hbm, ⟨10, _⟩ => ⟨S65536x128, .f32⟩
  | .hbm, ⟨11, _⟩ => ⟨S1x128, .f32⟩
  | .hbm, ⟨12, _⟩ => ⟨S65536x128, .f32⟩
  | .hbm, ⟨13, _⟩ => ⟨S65536x128, .f32⟩
  | .hbm, ⟨14, _⟩ => ⟨S65536x8x16, .f32⟩
  | .hbm, ⟨15, _⟩ => ⟨S_, .i32⟩
  | .hbm, ⟨16, _⟩ => ⟨S65536, .i32⟩
  | .hbm, ⟨17, _⟩ => ⟨S65536, .i1⟩
  | .hbm, ⟨18, _⟩ => ⟨S_, .i32⟩
  | .hbm, ⟨19, _⟩ => ⟨S65536, .i32⟩
  | .hbm, ⟨20, _⟩ => ⟨S65536, .i32⟩
  | .hbm, ⟨21, _⟩ => ⟨S65536, .i32⟩
  | .hbm, ⟨22, _⟩ => ⟨S_, .i32⟩
  | .hbm, ⟨23, _⟩ => ⟨S65536, .i32⟩
  | .hbm, ⟨24, _⟩ => ⟨S65536, .i1⟩
  | .hbm, ⟨25, _⟩ => ⟨S_, .i32⟩
  | .hbm, ⟨26, _⟩ => ⟨S65536, .i32⟩
  | .hbm, ⟨27, _⟩ => ⟨S65536, .i32⟩
  | .hbm, ⟨28, _⟩ => ⟨S65536, .i32⟩
  | .hbm, ⟨29, _⟩ => ⟨S65536x1, .i32⟩
  | .hbm, ⟨30, _⟩ => ⟨S65536x1, .i32⟩
  | .hbm, ⟨31, _⟩ => ⟨S65536x2, .i32⟩
  | .hbm, ⟨32, _⟩ => ⟨S65536x16, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S65536x16, .f32⟩
  | .hbm, ⟨37, _⟩ => ⟨S65536x16, .f32⟩
  | .hbm, ⟨38, _⟩ => ⟨S_, .f32⟩
  | .hbm, ⟨39, _⟩ => ⟨S65536x16, .f32⟩
  | .hbm, ⟨40, _⟩ => ⟨S65536x16, .f32⟩
  | .hbm, ⟨41, _⟩ => ⟨S16x256, .f32⟩
  | .hbm, ⟨42, _⟩ => ⟨S65536x256, .f32⟩
  | .hbm, ⟨43, _⟩ => ⟨S1x256, .f32⟩
  | .hbm, ⟨44, _⟩ => ⟨S65536x256, .f32⟩
  | .hbm, ⟨45, _⟩ => ⟨S65536x256, .f32⟩
  | .hbm, ⟨46, _⟩ => ⟨S65536x8x32, .f32⟩
  | .hbm, ⟨47, _⟩ => ⟨S_, .i32⟩
  | .hbm, ⟨48, _⟩ => ⟨S65536, .i32⟩
  | .hbm, ⟨49, _⟩ => ⟨S65536, .i1⟩
  | .hbm, ⟨50, _⟩ => ⟨S_, .i32⟩
  | .hbm, ⟨51, _⟩ => ⟨S65536, .i32⟩
  | .hbm, ⟨52, _⟩ => ⟨S65536, .i32⟩
  | .hbm, ⟨53, _⟩ => ⟨S65536, .i32⟩
  | .hbm, ⟨54, _⟩ => ⟨S_, .i32⟩
  | .hbm, ⟨55, _⟩ => ⟨S65536, .i32⟩
  | .hbm, ⟨56, _⟩ => ⟨S65536, .i1⟩
  | .hbm, ⟨57, _⟩ => ⟨S_, .i32⟩
  | .hbm, ⟨58, _⟩ => ⟨S65536, .i32⟩
  | .hbm, ⟨59, _⟩ => ⟨S65536, .i32⟩
  | .hbm, ⟨60, _⟩ => ⟨S65536, .i32⟩
  | .hbm, ⟨61, _⟩ => ⟨S65536x1, .i32⟩
  | .hbm, ⟨62, _⟩ => ⟨S65536x1, .i32⟩
  | .hbm, ⟨63, _⟩ => ⟨S65536x2, .i32⟩
  | .hbm, ⟨64, _⟩ => ⟨S65536x32, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S65536x32, .f32⟩
  | .hbm, ⟨69, _⟩ => ⟨S65536x32, .f32⟩
  | .hbm, ⟨70, _⟩ => ⟨S_, .f32⟩
  | .hbm, ⟨71, _⟩ => ⟨S65536x32, .f32⟩
  | .hbm, ⟨72, _⟩ => ⟨S65536x32, .f32⟩
  | .hbm, ⟨73, _⟩ => ⟨S32x8, .f32⟩
  | .hbm, ⟨74, _⟩ => ⟨S65536x8, .f32⟩
  | .hbm, ⟨75, _⟩ => ⟨S1x8, .f32⟩
  | .hbm, ⟨76, _⟩ => ⟨S65536x8, .f32⟩
  | .hbm, ⟨77, _⟩ => ⟨S65536x8, .f32⟩
  | .hbm, ⟨78, _⟩ => ⟨S65536x8x1, .f32⟩
  | .hbm, ⟨79, _⟩ => ⟨S_, .i32⟩
  | .hbm, ⟨80, _⟩ => ⟨S65536, .i32⟩
  | .hbm, ⟨81, _⟩ => ⟨S65536, .i1⟩
  | .hbm, ⟨82, _⟩ => ⟨S_, .i32⟩
  | .hbm, ⟨83, _⟩ => ⟨S65536, .i32⟩
  | .hbm, ⟨84, _⟩ => ⟨S65536, .i32⟩
  | .hbm, ⟨85, _⟩ => ⟨S65536, .i32⟩
  | .hbm, ⟨86, _⟩ => ⟨S_, .i32⟩
  | .hbm, ⟨87, _⟩ => ⟨S65536, .i32⟩
  | .hbm, ⟨88, _⟩ => ⟨S65536, .i1⟩
  | .hbm, ⟨89, _⟩ => ⟨S_, .i32⟩
  | .hbm, ⟨90, _⟩ => ⟨S65536, .i32⟩
  | .hbm, ⟨91, _⟩ => ⟨S65536, .i32⟩
  | .hbm, ⟨92, _⟩ => ⟨S65536, .i32⟩
  | .hbm, ⟨93, _⟩ => ⟨S65536x1, .i32⟩
  | .hbm, ⟨94, _⟩ => ⟨S65536x1, .i32⟩
  | .hbm, ⟨95, _⟩ => ⟨S65536x2, .i32⟩
  | .hbm, ⟨96, _⟩ => ⟨S65536x1, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_cst_9 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_10 : Ref sig .tc := ⟨.hbm, 79, rfl⟩
abbrev main_v49 : Ref sig .tc := ⟨.hbm, 80, rfl⟩
abbrev main_v50 : Ref sig .tc := ⟨.hbm, 81, rfl⟩
abbrev main_c_11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_12 : Ref sig .tc := ⟨.hbm, 86, rfl⟩
abbrev main_v54 : Ref sig .tc := ⟨.hbm, 87, rfl⟩
abbrev main_v55 : Ref sig .tc := ⟨.hbm, 88, rfl⟩
abbrev main_c_13 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩

abbrev nD : Nat := 1
abbrev τ : Topo := Topo.v7x

variable {F : FTy → Type} [FloatOps F]

class Facts₀ : Prop where
  transposes_S128x1024_S1024x128_1_0 : S128x1024.Transposes [1, 0] S1024x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  shapeCasts_S65536x128_S65536x8x16 : S65536x128.ShapeCasts S65536x8x16
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  bcast_S_S65536x16 : S_.BroadcastsInDim S65536x16 (![] : Fin 0 → Fin S65536x16.rank)
  transposes_S256x16_S16x256_1_0 : S256x16.Transposes [1, 0] S16x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  shapeCasts_S65536x256_S65536x8x32 : S65536x256.ShapeCasts S65536x8x32
  bcast_S_S65536x32 : S_.BroadcastsInDim S65536x32 (![] : Fin 0 → Fin S65536x32.rank)
  transposes_S8x32_S32x8_1_0 : S8x32.Transposes [1, 0] S32x8
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  shapeCasts_S65536x8_S65536x8x1 : S65536x8.ShapeCasts S65536x8x1
  dot_S65536x1024_S1024x128_S65536x128_1_0_0_1_n_n_wf : DotDims.WF S65536x1024 S1024x128 S65536x128 [1] [0] [0] [1] [] []
  gather_S65536x8x16_S65536x2_S65536x16_1_01_n_n_01_1_1116_wf : GatherDims.WF S65536x8x16 S65536x2 S65536x16 [1] [0, 1] [] [0, 1] [] 1 ![1, 1, 16]
  dot_S65536x16_S16x256_S65536x256_1_0_0_1_n_n_wf : DotDims.WF S65536x16 S16x256 S65536x256 [1] [0] [0] [1] [] []
  gather_S65536x8x32_S65536x2_S65536x32_1_01_n_n_01_1_1132_wf : GatherDims.WF S65536x8x32 S65536x2 S65536x32 [1] [0, 1] [] [0, 1] [] 1 ![1, 1, 32]
  dot_S65536x32_S32x8_S65536x8_1_0_0_1_n_n_wf : DotDims.WF S65536x32 S32x8 S65536x8 [1] [0] [0] [1] [] []
  gather_S65536x8x1_S65536x2_S65536x1_1_01_n_n_01_1_111_wf : GatherDims.WF S65536x8x1 S65536x2 S65536x1 [1] [0, 1] [] [0, 1] [] 1 ![1, 1, 1]

variable [Facts₀]

def dot_S65536x1024_S1024x128_S65536x128_1_0_0_1_n_n : DotDims S65536x1024 S1024x128 S65536x128 where
  lhsContracting := [1]
  rhsContracting := [0]
  lhsNonContracting := [0]
  rhsNonContracting := [1]
  lhsBatch := []
  rhsBatch := []
  wf := dot_S65536x1024_S1024x128_S65536x128_1_0_0_1_n_n_wf
def gather_S65536x8x16_S65536x2_S65536x16_1_01_n_n_01_1_1116 : GatherDims S65536x8x16 S65536x2 S65536x16 where
  offsetDims := [1]
  collapsedSliceDims := [0, 1]
  operandBatchingDims := []
  startIndicesBatchingDims := []
  startIndexMap := [0, 1]
  indexVectorDim := 1
  sliceSizes := ![1, 1, 16]
  wf := gather_S65536x8x16_S65536x2_S65536x16_1_01_n_n_01_1_1116_wf
def dot_S65536x16_S16x256_S65536x256_1_0_0_1_n_n : DotDims S65536x16 S16x256 S65536x256 where
  lhsContracting := [1]
  rhsContracting := [0]
  lhsNonContracting := [0]
  rhsNonContracting := [1]
  lhsBatch := []
  rhsBatch := []
  wf := dot_S65536x16_S16x256_S65536x256_1_0_0_1_n_n_wf
def gather_S65536x8x32_S65536x2_S65536x32_1_01_n_n_01_1_1132 : GatherDims S65536x8x32 S65536x2 S65536x32 where
  offsetDims := [1]
  collapsedSliceDims := [0, 1]
  operandBatchingDims := []
  startIndicesBatchingDims := []
  startIndexMap := [0, 1]
  indexVectorDim := 1
  sliceSizes := ![1, 1, 32]
  wf := gather_S65536x8x32_S65536x2_S65536x32_1_01_n_n_01_1_1132_wf
def dot_S65536x32_S32x8_S65536x8_1_0_0_1_n_n : DotDims S65536x32 S32x8 S65536x8 where
  lhsContracting := [1]
  rhsContracting := [0]
  lhsNonContracting := [0]
  rhsNonContracting := [1]
  lhsBatch := []
  rhsBatch := []
  wf := dot_S65536x32_S32x8_S65536x8_1_0_0_1_n_n_wf
def gather_S65536x8x1_S65536x2_S65536x1_1_01_n_n_01_1_111 : GatherDims S65536x8x1 S65536x2 S65536x1 where
  offsetDims := [1]
  collapsedSliceDims := [0, 1]
  operandBatchingDims := []
  startIndicesBatchingDims := []
  startIndexMap := [0, 1]
  indexVectorDim := 1
  sliceSizes := ![1, 1, 1]
  wf := gather_S65536x8x1_S65536x2_S65536x1_1_01_n_n_01_1_111_wf

class Facts : Prop extends Facts₀ where

variable [Facts]
-- ==== Proof.Spec.lean ====
/-
  The function of the argument arrays that both programs compute, and the three algebraic facts that join them.

  A sample (row) `b` carries a feature vector `x[b, ·]` of length 1024 and an expert index `e = idx[b] ∈ [0, 8)`.
  Three affine layers follow, each stacked over the eight experts; between them a value is clamped into [0, 1]:
    lin1 b j   = ∑ k, x[b, k] · w1[j, k] + b1[j]                               (j < 128: expert e' owns j ∈ [16 e', 16 e' + 16))
    lin2 b e r = ∑ q < 16, clip (lin1 b (16 e + q)) · w2[32 e + r, q] + b2[32 e + r]   (r < 32)
    lin3 b e   = ∑ r < 32, clip (lin2 b e r) · wo[e, r] + bo[e]
  and the result at row `b` is `lin3 b (idx[b])`: only the selected expert's slices are ever read.

  One program gathers the selected slice after each layer; the other multiplies by block-diagonal matrices (the
  off-diagonal expert blocks zero) and selects once at the end by a one-hot weighted sum. On the extended reals a
  product with `0` is `0` and addition is commutative and associative, so the two agree with no finiteness
  assumption: `sum_block16` / `sum_block32` collapse a sum against a block-diagonal column to the diagonal
  block, and `sum_onehot` collapses the one-hot weighted sum to its selected term.
-/
import Idealize.ShloMosaic.PureOps.Ideal.Laws
import Idealize.ShloMosaic.Lib.ValueIdx

noncomputable section

namespace Cert.StackSpec

open Idealize.ShloMosaic Idealize.ShloMosaic.ValueIdx
open scoped BigOperators

/-- Clamping into [0, 1]: `min 1 (max 0 v)`, the two bounds kept as the float words both programs print. -/
def clip01 (v : EReal) : EReal :=
  min (Ideal.ofBits .f32 0x3F800000#32) (max (Ideal.ofBits .f32 0x00000000#32) v)

/-- Position `q` of expert `e`'s 16-wide slice among the 128 stacked first-layer outputs. -/
def at16 (e : Fin 8) (q : Fin 16) : Fin 128 := ⟨16 * e.val + q.val, by omega⟩
/-- Position `r` of expert `e`'s 32-wide slice among the 256 stacked second-layer outputs. -/
def at32 (e : Fin 8) (r : Fin 32) : Fin 256 := ⟨32 * e.val + r.val, by omega⟩

theorem at16_val (e : Fin 8) (q : Fin 16) : (at16 e q).val = 16 * e.val + q.val := rfl
theorem at32_val (e : Fin 8) (r : Fin 32) : (at32 e r).val = 32 * e.val + r.val := rfl

/-- The expert a row selects: its index word read as a number (reduced mod 8, which changes nothing in range). -/
def selOf (idx : (⟨1, ![65536]⟩ : Shape).Idx → BitVec 32) (b : Fin 65536) : Fin 8 :=
  ⟨(idx (ix1 b)).toNat % 8, Nat.mod_lt _ (by decide)⟩

/-- An index word in [0, 8) is the word of the expert it selects. -/
theorem idx_eq_sel (idx : (⟨1, ![65536]⟩ : Shape).Idx → BitVec 32) (b : Fin 65536)
    (h0 : 0 ≤ (idx (ix1 b)).toInt) (h8 : (idx (ix1 b)).toInt < 8) :
    idx (ix1 b) = BitVec.ofNat 32 (selOf idx b).val := by
  have hnat : (idx (ix1 b)).toNat < 8 := by
    have h := BitVec.toInt_eq_toNat_cond (idx (ix1 b))
    split at h <;> omega
  apply BitVec.eq_of_toNat_eq
  simp only [selOf, BitVec.toNat_ofNat]
  omega

section Spec
variable (x : (⟨2, ![65536, 1024]⟩ : Shape).Idx → EReal) (idx : (⟨1, ![65536]⟩ : Shape).Idx → BitVec 32)
  (w1 : (⟨2, ![128, 1024]⟩ : Shape).Idx → EReal) (b1 : (⟨1, ![128]⟩ : Shape).Idx → EReal)
  (w2 : (⟨2, ![256, 16]⟩ : Shape).Idx → EReal) (b2 : (⟨1, ![256]⟩ : Shape).Idx → EReal)
  (wo : (⟨2, ![8, 32]⟩ : Shape).Idx → EReal) (bo : (⟨1, ![8]⟩ : Shape).Idx → EReal)

/-- First layer, all 128 stacked outputs of row `b`. -/
def lin1 (b : Fin 65536) (j : Fin 128) : EReal :=
  (∑ k : Fin 1024, x (ix2 b k) * w1 (ix2 j k)) + b1 (ix1 j)

/-- Second layer of expert `e` on the clamped first-layer slice of the same expert. -/
def lin2 (b : Fin 65536) (e : Fin 8) (r : Fin 32) : EReal :=
  (∑ q : Fin 16, clip01 (lin1 x w1 b1 b (at16 e q)) * w2 (ix2 (at32 e r) q)) + b2 (ix1 (at32 e r))

/-- Output layer of expert `e` on its clamped second-layer slice. -/
def lin3 (b : Fin 65536) (e : Fin 8) : EReal :=
  (∑ r : Fin 32, clip01 (lin2 x w1 b1 w2 b2 b e r) * wo (ix2 e r)) + bo (ix1 e)

/-- The result array [65536, 1]: row `b` holds the output of the expert the row selects. -/
def G : (⟨2, ![65536, 1]⟩ : Shape).Idx → EReal :=
  fun i => lin3 x w1 b1 w2 b2 wo bo (i 0) (selOf idx (i 0))

end Spec

/-! ## Sums over stacked positions -/

/-- A sum over the 128 stacked positions, expert by expert. -/
theorem sum_at16 (f : Fin 128 → EReal) : ∑ i : Fin 128, f i = ∑ e : Fin 8, ∑ q : Fin 16, f (at16 e q) := by
  rw [← Fintype.sum_prod_type' (f := fun e q => f (at16 e q))]
  refine (Fintype.sum_equiv (finProdFinEquiv (m := 8) (n := 16)) _ _ fun p => ?_).symm
  refine congrArg f (Fin.ext ?_)
  show 16 * p.1.val + p.2.val = p.2.val + 16 * p.1.val
  omega

/-- A sum over the 256 stacked positions, expert by expert. -/
theorem sum_at32 (f : Fin 256 → EReal) : ∑ i : Fin 256, f i = ∑ e : Fin 8, ∑ r : Fin 32, f (at32 e r) := by
  rw [← Fintype.sum_prod_type' (f := fun e r => f (at32 e r))]
  refine (Fintype.sum_equiv (finProdFinEquiv (m := 8) (n := 32)) _ _ fun p => ?_).symm
  refine congrArg f (Fin.ext ?_)
  show 32 * p.1.val + p.2.val = p.2.val + 32 * p.1.val
  omega

/-- Against a column that is zero outside expert `e`'s block, a sum over the 128 positions keeps that block only. -/
theorem sum_block16 (a W : Fin 128 → EReal) (e : Fin 8) (w : Fin 16 → EReal)
    (hW : ∀ e' q, W (at16 e' q) = if e' = e then w q else 0) :
    ∑ i : Fin 128, a i * W i = ∑ q : Fin 16, a (at16 e q) * w q := by
  rw [sum_at16]
  have h : ∀ e' : Fin 8, ∑ q : Fin 16, a (at16 e' q) * W (at16 e' q)
      = if e' = e then ∑ q : Fin 16, a (at16 e q) * w q else 0 := by
    intro e'
    by_cases he : e' = e
    · subst he; simp only [hW, if_true]
    · simp only [hW, if_neg he, mul_zero, Finset.sum_const_zero]
  simp only [h, Finset.sum_ite_eq', Finset.mem_univ, if_true]

/-- The same over the 256 positions. -/
theorem sum_block32 (a W : Fin 256 → EReal) (e : Fin 8) (w : Fin 32 → EReal)
    (hW : ∀ e' r, W (at32 e' r) = if e' = e then w r else 0) :
    ∑ i : Fin 256, a i * W i = ∑ r : Fin 32, a (at32 e r) * w r := by
  rw [sum_at32]
  have h : ∀ e' : Fin 8, ∑ r : Fin 32, a (at32 e' r) * W (at32 e' r)
      = if e' = e then ∑ r : Fin 32, a (at32 e r) * w r else 0 := by
    intro e'
    by_cases he : e' = e
    · subst he; simp only [hW, if_true]
    · simp only [hW, if_neg he, mul_zero, Finset.sum_const_zero]
  simp only [h, Finset.sum_ite_eq', Finset.mem_univ, if_true]

/-- A sum weighted by the indicator of one expert is that expert's term. -/
theorem sum_onehot (g oh : Fin 8 → EReal) (e : Fin 8) (hoh : ∀ e', oh e' = if e' = e then 1 else 0) :
    ∑ e' : Fin 8, g e' * oh e' = g e := by
  simp only [hoh, mul_ite, mul_one, mul_zero, Finset.sum_ite_eq', Finset.mem_univ, if_true]

/-! ## The block-diagonal form is the gathered form -/

/-- One row through the three layers in BLOCK-DIAGONAL form — every expert's slice computed, the second and third
    weight matrices zero off the diagonal blocks (`hW2`, `hW3`), the result the indicator-weighted sum over experts
    (`hoh`) — is the selected expert's three layers alone: the indicator keeps expert `e`'s output, whose sum over
    256 positions keeps block `e` of the third matrix, each term of which sums over 128 positions and keeps block
    `e` of the second. -/
theorem stacked_eq (xr : Fin 1024 → EReal) (W1 : Fin 1024 → Fin 128 → EReal) (B1 : Fin 128 → EReal)
    (W2 : Fin 128 → Fin 256 → EReal) (B2 : Fin 256 → EReal) (W3 : Fin 256 → Fin 8 → EReal) (B3 : Fin 8 → EReal)
    (oh : Fin 8 → EReal) (e : Fin 8) (w2 : Fin 256 → Fin 16 → EReal) (wo : Fin 8 → Fin 32 → EReal)
    (hW2 : ∀ e' q e'' r, W2 (at16 e' q) (at32 e'' r) = if e' = e'' then w2 (at32 e'' r) q else 0)
    (hW3 : ∀ e' r e'', W3 (at32 e' r) e'' = if e' = e'' then wo e'' r else 0)
    (hoh : ∀ e', oh e' = if e' = e then 1 else 0) :
    ∑ e' : Fin 8, ((∑ i : Fin 256, clip01 ((∑ j : Fin 128, clip01 ((∑ k : Fin 1024, xr k * W1 k j) + B1 j) * W2 j i) + B2 i)
        * W3 i e') + B3 e') * oh e'
      = (∑ r : Fin 32, clip01 ((∑ q : Fin 16, clip01 ((∑ k : Fin 1024, xr k * W1 k (at16 e q)) + B1 (at16 e q))
          * w2 (at32 e r) q) + B2 (at32 e r)) * wo e r) + B3 e := by
  rw [sum_onehot _ oh e hoh]
  congr 1
  rw [sum_block32 _ (fun i => W3 i e) e (fun r => wo e r) (fun e' r => hW3 e' r e)]
  refine Finset.sum_congr rfl fun r _ => ?_
  congr 3
  exact sum_block16 _ (fun j => W2 j (at32 e r)) e (fun q => w2 (at32 e r) q) (fun e' q => hW2 e' q e r)

/-- Row `l` of tile `t` (2048 rows a tile) among the 65536 rows. -/
def rowOf (t : Fin 32) (l : Fin 2048) : Fin 65536 := ⟨2048 * t.val + l.val, by omega⟩

theorem rowOf_val (t : Fin 32) (l : Fin 2048) : (rowOf t l).val = 2048 * t.val + l.val := rfl

end Cert.StackSpec

end
-- ==== Proof.PreDecode.lean ====
import proofs.«418566_j6262062317931_3_alg».proof.Proof.Gen.Pre_finite_inputs
import Idealize.ShloMosaic.PureOps.Ideal.Laws
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx Cert.Pre_finite_inputs

/-- Under the precondition every index word, read signed, lies in [0, 8). -/
theorem idx_range (x0 : FVec Ideal S65536x1024 .f32) (x1 : IVec S65536 32) (x2 : FVec Ideal S128x1024 .f32)
    (x3 : FVec Ideal S128 .f32) (x4 : FVec Ideal S256x16 .f32) (x5 : FVec Ideal S256 .f32)
    (x6 : FVec Ideal S8x32 .f32) (x7 : FVec Ideal S8 .f32)
    (h : Cert.Pre_finite_inputs.fn (F := Ideal) x0 x1 x2 x3 x4 x5 x6 x7 = fun _ => 1#1) (b : Fin 65536) :
    0 ≤ (x1 (ix1 b)).toInt ∧ (x1 (ix1 b)).toInt < 8 := by
  -- the precondition is one `i1` scalar; read it at its only index
  have h0 := congrFun h ix0
  dsimp only [fn, fn_part1, fn_part2] at h0
  -- it is a conjunction (bitwise `and` of `i1` words) whose last two conjuncts are the two range tests
  obtain ⟨h1, hlt⟩ := IntOp.andi_eq_one.1 h0
  obtain ⟨_, hge⟩ := IntOp.andi_eq_one.1 h1
  haveI : Subsingleton S_.Idx := ⟨fun a b => funext fun d => d.elim0⟩
  -- each range test is an all-reduction by `and` of an elementwise signed comparison with a splat constant
  have e1 : IntOp.cmpi .sge (x1 (ix1 b)) 0#32 = 1#1 := Host.reduce_andi_all _ _ _ _ ix0 hge (ix1 b)
  have e2 : IntOp.cmpi .slt (x1 (ix1 b)) 8#32 = 1#1 := Host.reduce_andi_all _ _ _ _ ix0 hlt (ix1 b)
  have g1 := IntOp.cmpi_sge.1 e1
  have g2 := IntOp.cmpi_slt.1 e2
  have z0 : (0#32 : BitVec 32).toInt = 0 := by decide
  have z8 : (8#32 : BitVec 32).toInt = 8 := by decide
  rw [z0] at g1
  rw [z8] at g2
  exact ⟨g1, g2⟩

end Cert.PreDecode

end
-- ==== Proof.RefValue.lean ====
import proofs.«418566_j6262062317931_3_alg».proof.Proof.Gen.ReferenceIdeal.Read
import proofs.«418566_j6262062317931_3_alg».proof.Proof.Spec

/-
  The reference, read at one row, is the specification G.

  The reference computes each layer for all eight experts at once (a contraction against the whole stacked weight
  matrix and a bias add), reshapes the result to [rows, 8, K] and GATHERS, for row b, the slice of expert idx[b]:
  the start index of the gather at row b is the pair (b, idx[b]) (two columns laid side by side), each component
  read signed and clamped into its axis, which changes nothing for a row number below 65536 and an expert number
  in [0, 8). So the gathered element (b, o) is element (b, idx[b], o) of the reshaped array, which is element
  (b, K * idx[b] + o) of the array before the reshape. Clamping into [0, 1] is elementwise. Reading the three
  layers in turn gives lin1, lin2, lin3 of the specification at the selected expert.
-/

noncomputable section

namespace Cert.ReferenceIdeal.RefValue

open Cert.ReferenceIdeal Cert.ReferenceIdeal.Gen Idealize.ShloMosaic Idealize.ShloMosaic.ValueIdx Cert.StackSpec
open scoped BigOperators

/-! ## One slice per row: the gather at a (row, expert) start index

An operand [65536, 8, K], a start-index table [65536, 2] whose row b is the pair (row, expert), the first two operand
axes collapsed and start-indexed, the last the one offset axis: result element (b, o) is the operand at
(clamp row, clamp expert, o). -/

/-- THE GATHER READ AT (b, o), given what the two clamped start components at row b are. -/
theorem gather_row_expert {α : Type} {K w : Nat}
    (d : GatherDims ⟨3, ![65536, 8, K]⟩ ⟨2, ![65536, 2]⟩ ⟨2, ![65536, K]⟩)
    (hoff : d.offsetDims = [1]) (hcoll : d.collapsedSliceDims = [0, 1]) (hob : d.operandBatchingDims = [])
    (hsim : d.startIndexMap = [0, 1]) (hivd : d.indexVectorDim = 1)
    (x : (⟨3, ![65536, 8, K]⟩ : Shape).Idx → α) (idx : IVec ⟨2, ![65536, 2]⟩ w)
    (b : Fin 65536) (o : Fin K) (r : Fin 65536) (e : Fin 8)
    (hr : min (idx (ix2 b (0 : Fin 2))).toInt.toNat 65535 = r.val)
    (he : min (idx (ix2 b (1 : Fin 2))).toInt.toNat 7 = e.val) :
    Host.gather d x idx (ix2 b o) = x (ix3 r e o) := by
  unfold Host.gather
  congr 1
  have hb : ∀ a : Fin 3, a ∉ d.operandBatchingDims := fun a => by rw [hob]; exact List.not_mem_nil
  have hbd : ∀ X : Fin 2, X ∈ d.batchDims → ((ix2 b o) X).val = b.val := by
    intro X hX
    have h1 : X ∉ d.offsetDims := by
      simpa [GatherDims.batchDims, Shape.kept, List.mem_filter] using hX
    rw [hoff] at h1
    have h2 : X = 0 := by
      apply Fin.ext
      have h3 : X ≠ 1 := fun h => h1 (by rw [h]; exact List.mem_singleton.mpr rfl)
      have h4 : X.val ≠ 1 := fun h => h3 (Fin.ext h)
      have := X.isLt
      show X.val = 0
      omega
    subst h2
    rfl
  have hsi : ∀ (c : Fin d.startIndexMap.length) (hc : c.val < 2), d.siIdx (ix2 b o) c = ix2 b (⟨c.val, hc⟩ : Fin 2) := by
    intro c hc
    funext a'
    match a' with
    | ⟨0, _⟩ =>
      unfold GatherDims.siIdx
      rw [dif_neg (by rw [hivd]; exact Nat.zero_ne_one)]
      unfold GatherDims.siCoord
      apply Fin.ext
      simp only [Fin.val_cast]
      exact hbd _ (List.getElem_mem _)
    | ⟨1, _⟩ =>
      unfold GatherDims.siIdx
      rw [dif_pos (by rw [hivd])]
      rfl
  have i0 : List.idxOf (0 : Fin 3) d.startIndexMap = 0 := by rw [hsim]; rfl
  have i1 : List.idxOf (1 : Fin 3) d.startIndexMap = 1 := by rw [hsim]; rfl
  have key : ∀ (n : Nat) (hn : n < 2) (z : Fin 2), n = z.val → idx (ix2 b (⟨n, hn⟩ : Fin 2)) = idx (ix2 b z) := by
    intro n hn z h; subst h; rfl
  have h0 : (d.operandIdx (ix2 b o) idx 0).val = r.val := by
    have hk : (0 : Fin 3) ∉ d.sKept := by rw [GatherDims.mem_sKept, hcoll]; simp
    have hm : (0 : Fin 3) ∈ d.startIndexMap := by rw [hsim]; simp
    have hsl : d.sliceSizes 0 = 1 := d.slice_collapsed 0 (by rw [hcoll]; simp)
    simp only [GatherDims.operandIdx, GatherDims.batchCoord_eq_zero _ _ _ (hb 0), GatherDims.offCoord_eq_zero _ _ _ hk,
      Nat.add_zero, GatherDims.start, dif_pos hm]
    rw [hsi _ (by show List.idxOf (0 : Fin 3) d.startIndexMap < 2; omega), hsl, key _ _ 0 i0]
    exact hr
  have h1 : (d.operandIdx (ix2 b o) idx 1).val = e.val := by
    have hk : (1 : Fin 3) ∉ d.sKept := by rw [GatherDims.mem_sKept, hcoll]; simp
    have hm : (1 : Fin 3) ∈ d.startIndexMap := by rw [hsim]; simp
    have hsl : d.sliceSizes 1 = 1 := d.slice_collapsed 1 (by rw [hcoll]; simp)
    simp only [GatherDims.operandIdx, GatherDims.batchCoord_eq_zero _ _ _ (hb 1), GatherDims.offCoord_eq_zero _ _ _ hk,
      Nat.add_zero, GatherDims.start, dif_pos hm]
    rw [hsi _ (by show List.idxOf (1 : Fin 3) d.startIndexMap < 2; omega), hsl, key _ _ 1 i1]
    exact he
  have h2 : (d.operandIdx (ix2 b o) idx 2).val = o.val := by
    have hk : (2 : Fin 3) ∈ d.sKept := by rw [GatherDims.mem_sKept, hcoll, hob]; simp
    have hm : (2 : Fin 3) ∉ d.startIndexMap := by rw [hsim]; simp
    simp only [GatherDims.operandIdx, GatherDims.batchCoord_eq_zero _ _ _ (hb 2), Nat.add_zero, GatherDims.start, dif_neg hm,
      Nat.zero_add, GatherDims.offCoord, dif_pos hk]
    have hod : ∀ X : Fin 2, X ∈ d.offsetDims → ((ix2 b o) X).val = o.val := by
      intro X hX
      rw [hoff] at hX
      have h2 := List.mem_singleton.mp hX
      subst h2
      rfl
    exact hod _ (List.getElem_mem _)
  funext a
  apply Fin.ext
  match a with
  | ⟨0, _⟩ => exact h0
  | ⟨1, _⟩ => exact h1
  | ⟨2, _⟩ => exact h2

/-! ## Two columns side by side, and the words in them -/

/-- Column 0 of two [65536, 1] columns laid side by side is the first column. -/
theorem cat_col0 {α : Type} (x y : (⟨2, ![65536, 1]⟩ : Shape).Idx → α)
    (h : Shape.Concatenates [(⟨2, ![65536, 1]⟩ : Shape), ⟨2, ![65536, 1]⟩] ⟨2, ![65536, 2]⟩ 1) (b : Fin 65536) :
    concatenate ⟨2, ![65536, 2]⟩ 1 [⟨⟨2, ![65536, 1]⟩, x⟩, ⟨⟨2, ![65536, 1]⟩, y⟩] h (ix2 b (0 : Fin 2)) = x (ix2 b (0 : Fin 1)) :=
  concatenate_pair_apply_left 1 x y h _ rfl _ (fun a => by
    match a with
    | ⟨0, _⟩ => rfl
    | ⟨1, _⟩ => rfl)

/-- Column 1 is the second column. -/
theorem cat_col1 {α : Type} (x y : (⟨2, ![65536, 1]⟩ : Shape).Idx → α)
    (h : Shape.Concatenates [(⟨2, ![65536, 1]⟩ : Shape), ⟨2, ![65536, 1]⟩] ⟨2, ![65536, 2]⟩ 1) (b : Fin 65536) :
    concatenate ⟨2, ![65536, 2]⟩ 1 [⟨⟨2, ![65536, 1]⟩, x⟩, ⟨⟨2, ![65536, 1]⟩, y⟩] h (ix2 b (1 : Fin 2)) = y (ix2 b (0 : Fin 1)) :=
  concatenate_pair_apply_right 1 x y h _ rfl rfl _
    (fun a ha => by
      match a with
      | ⟨0, _⟩ => rfl
      | ⟨1, _⟩ => exact absurd rfl ha)
    rfl

/-- A number below 2^31, as a 32-bit word read signed, is itself. -/
theorem toNat_toInt_ofNat (n : Nat) (h : n < 2147483648) : (BitVec.ofNat 32 n).toInt.toNat = n := by
  have h1 := BitVec.toInt_eq_toNat_cond (BitVec.ofNat 32 n)
  have h2 : (BitVec.ofNat 32 n).toNat = n := by
    simp only [BitVec.toNat_ofNat]
    omega
  rw [h2] at h1
  split at h1 <;> omega

/-- And it is not negative. -/
theorem toInt_ofNat_nonneg (n : Nat) (h : n < 2147483648) : 0 ≤ (BitVec.ofNat 32 n).toInt := by
  have h1 := BitVec.toInt_eq_toNat_cond (BitVec.ofNat 32 n)
  have h2 : (BitVec.ofNat 32 n).toNat = n := by
    simp only [BitVec.toNat_ofNat]
    omega
  rw [h2] at h1
  split at h1 <;> omega

/-- The signed test "below zero" of a word that is not negative is the bit 0. -/
theorem slt_zero_of_nonneg (v : BitVec 32) (h : 0 ≤ v.toInt) : IntOp.cmpi .slt v 0#32 = 0#1 := by
  have : v.slt 0#32 = false := by
    simp only [BitVec.slt, BitVec.toInt_zero]
    exact decide_eq_false (by omega)
  simp only [IntOp.cmpi, this]
  rfl

/-- At the extended reals the float sum is the sum. -/
theorem addf_eq (a b : EReal) : FloatOps.addf (F := Ideal) (φ := .f32) a b = a + b := rfl

/-! ## The start-index table: row b holds (b, idx[b]) -/

section Start
variable (x1 : (⟨S65536, .i32⟩ : BufTy).Contents (Elt Ideal))

/-- Column 0: the row's own number (an iota, wrapped by the size only if negative, which it never is). -/
theorem start_row (b : Fin 65536) :
    Read.val_main_v19 (F := Ideal) x1 (ix2 b (0 : Fin 2)) = BitVec.ofNat 32 b.val := by
  refine (cat_col0 _ _ _ b).trans ?_
  have e : Read.idx_main_v17 (ix2 b (0 : Fin 1)) = ix1 b := funext fun a => by match a with | ⟨0, _⟩ => rfl
  rw [Read.val_main_v17_apply, e, Read.val_main_v11_apply, Read.val_main_v8_apply, Read.val_main_v7_apply,
    Read.val_main_c_apply, Read.val_main_v0_apply]
  show Scalar.select (IntOp.cmpi .slt (BitVec.ofNat 32 b.val) 0#32) _ (BitVec.ofNat 32 b.val) = _
  rw [slt_zero_of_nonneg _ (toInt_ofNat_nonneg _ (by have := b.isLt; omega)), select_zero]

/-- Column 1: the row's index word (wrapped by 8 only if negative, which the precondition excludes). -/
theorem start_expert (b : Fin 65536) (h0 : 0 ≤ (x1 (ix1 b)).toInt) :
    Read.val_main_v19 (F := Ideal) x1 (ix2 b (1 : Fin 2)) = x1 (ix1 b) := by
  refine (cat_col1 _ _ _ b).trans ?_
  have e : Read.idx_main_v18 (ix2 b (0 : Fin 1)) = ix1 b := funext fun a => by match a with | ⟨0, _⟩ => rfl
  rw [Read.val_main_v18_apply, e, Read.val_main_v16_apply, Read.val_main_v13_apply, Read.val_main_v12_apply,
    Read.val_main_c_1_apply, slt_zero_of_nonneg _ h0, select_zero]

/-- The two start components of row b, read signed and clamped into their axes: the row, and the selected expert. -/
theorem start_clamped (b : Fin 65536) (h0 : 0 ≤ (x1 (ix1 b)).toInt) (h8 : (x1 (ix1 b)).toInt < 8) :
    min (Read.val_main_v19 (F := Ideal) x1 (ix2 b (0 : Fin 2))).toInt.toNat 65535 = b.val ∧
    min (Read.val_main_v19 (F := Ideal) x1 (ix2 b (1 : Fin 2))).toInt.toNat 7 = (selOf x1 b).val := by
  have hb := b.isLt
  have he := (selOf x1 b).isLt
  constructor
  · rw [start_row, toNat_toInt_ofNat _ (by omega)]; omega
  · rw [start_expert x1 b h0, idx_eq_sel x1 b h0 h8, toNat_toInt_ofNat _ (by omega)]; omega

/-- The three gathers are handed the same table. -/
theorem start_v40 : Read.val_main_v40 (F := Ideal) x1 = Read.val_main_v19 (F := Ideal) x1 := rfl
theorem start_v61 : Read.val_main_v61 (F := Ideal) x1 = Read.val_main_v19 (F := Ideal) x1 := rfl

end Start

/-! ## The three layers -/

section Layers
variable (x0 : (⟨S65536x1024, .f32⟩ : BufTy).Contents (Elt Ideal)) (x1 : (⟨S65536, .i32⟩ : BufTy).Contents (Elt Ideal))
  (x2 : (⟨S128x1024, .f32⟩ : BufTy).Contents (Elt Ideal)) (x3 : (⟨S128, .f32⟩ : BufTy).Contents (Elt Ideal))
  (x4 : (⟨S256x16, .f32⟩ : BufTy).Contents (Elt Ideal)) (x5 : (⟨S256, .f32⟩ : BufTy).Contents (Elt Ideal))
  (x6 : (⟨S8x32, .f32⟩ : BufTy).Contents (Elt Ideal)) (x7 : (⟨S8, .f32⟩ : BufTy).Contents (Elt Ideal))

/-- First layer before the reshape: all 128 stacked outputs of row b. -/
theorem read_v5 (b : Fin 65536) (j : Fin 128) :
    Read.val_main_v5 (F := Ideal) x0 x2 x3 (ix2 b j) = lin1 x0 x2 x3 b j := by
  have e4 : Read.idx_main_v3 (Read.idx_main_v4 (ix2 b j)) = ix1 j := funext fun a => by match a with | ⟨0, _⟩ => rfl
  have el : ∀ k : Fin 1024, Read.lidx_main_v2 (ix2 b j) k = ix2 b k := fun k => funext fun a => by
    match a with
    | ⟨0, _⟩ => rfl
    | ⟨1, _⟩ => rfl
  have er : ∀ k : Fin 1024, Read.idx_main_v1 (Read.ridx_main_v2 (ix2 b j) k) = ix2 j k := fun k => funext fun a => by
    match a with
    | ⟨0, _⟩ => rfl
    | ⟨1, _⟩ => rfl
  rw [Read.val_main_v5_apply, Read.val_main_v2_apply, Read.val_main_v4_apply, Read.val_main_v3_apply, e4, addf_eq]
  unfold lin1
  congr 1
  refine Finset.sum_congr rfl fun k _ => ?_
  rw [Read.val_main_v1_apply, el, er]

/-- The reshape [65536, 128] → [65536, 8, 16]: element (b, e, q) is stacked position 16 e + q. -/
theorem read_v6 (b : Fin 65536) (e : Fin 8) (q : Fin 16) :
    Read.val_main_v6 (F := Ideal) x0 x2 x3 (ix3 b e q) = lin1 x0 x2 x3 b (at16 e q) := by
  have ei : Read.idx_main_v6 (ix3 b e q) = ix2 b (at16 e q) := funext fun a => by
    have hb := b.isLt; have he := e.isLt; have hq := q.isLt
    match a with
    | ⟨0, _⟩ => exact Fin.ext (by show ((b.val * 8 + e.val) * 16 + q.val) / 128 = b.val; omega)
    | ⟨1, _⟩ => exact Fin.ext (by show ((b.val * 8 + e.val) * 16 + q.val) % 128 = 16 * e.val + q.val; omega)
  rw [Read.val_main_v6_apply, ei, read_v5]

/-- The first gather: the selected expert's 16 first-layer outputs. -/
theorem read_v20 (b : Fin 65536) (h0 : 0 ≤ (x1 (ix1 b)).toInt) (h8 : (x1 (ix1 b)).toInt < 8) (q : Fin 16) :
    Read.val_main_v20 (F := Ideal) x0 x1 x2 x3 (ix2 b q) = lin1 x0 x2 x3 b (at16 (selOf x1 b) q) :=
  (gather_row_expert gather_S65536x8x16_S65536x2_S65536x16_1_01_n_n_01_1_1116 rfl rfl rfl rfl rfl
    (Read.val_main_v6 (F := Ideal) x0 x2 x3) (Read.val_main_v19 (F := Ideal) x1) b q b (selOf x1 b)
    (start_clamped x1 b h0 h8).1 (start_clamped x1 b h0 h8).2).trans (read_v6 x0 x2 x3 b (selOf x1 b) q)

/-- Clamped. -/
theorem read_v21 (b : Fin 65536) (h0 : 0 ≤ (x1 (ix1 b)).toInt) (h8 : (x1 (ix1 b)).toInt < 8) (q : Fin 16) :
    Read.val_main_v21 (F := Ideal) x0 x1 x2 x3 (ix2 b q) = clip01 (lin1 x0 x2 x3 b (at16 (selOf x1 b) q)) := by
  have h : Read.val_main_v21 (F := Ideal) x0 x1 x2 x3 (ix2 b q)
      = clip01 (Read.val_main_v20 (F := Ideal) x0 x1 x2 x3 (ix2 b q)) := rfl
  rw [h, read_v20 x0 x1 x2 x3 b h0 h8 q]

/-- Second layer before the reshape: all 256 stacked outputs, each on the selected expert's clamped slice. -/
theorem read_v26 (b : Fin 65536) (h0 : 0 ≤ (x1 (ix1 b)).toInt) (h8 : (x1 (ix1 b)).toInt < 8) (i : Fin 256) :
    Read.val_main_v26 (F := Ideal) x0 x1 x2 x3 x4 x5 (ix2 b i)
      = (∑ q : Fin 16, clip01 (lin1 x0 x2 x3 b (at16 (selOf x1 b) q)) * x4 (ix2 i q)) + x5 (ix1 i) := by
  have e4 : Read.idx_main_v24 (Read.idx_main_v25 (ix2 b i)) = ix1 i := funext fun a => by match a with | ⟨0, _⟩ => rfl
  have el : ∀ q : Fin 16, Read.lidx_main_v23 (ix2 b i) q = ix2 b q := fun q => funext fun a => by
    match a with
    | ⟨0, _⟩ => rfl
    | ⟨1, _⟩ => rfl
  have er : ∀ q : Fin 16, Read.idx_main_v22 (Read.ridx_main_v23 (ix2 b i) q) = ix2 i q := fun q => funext fun a => by
    match a with
    | ⟨0, _⟩ => rfl
    | ⟨1, _⟩ => rfl
  rw [Read.val_main_v26_apply, Read.val_main_v23_apply, Read.val_main_v25_apply, Read.val_main_v24_apply, e4, addf_eq]
  congr 1
  refine Finset.sum_congr rfl fun q _ => ?_
  rw [Read.val_main_v22_apply, el, er, read_v21 x0 x1 x2 x3 b h0 h8 q]

/-- The reshape [65536, 256] → [65536, 8, 32]: element (b, e, r) is stacked position 32 e + r. -/
theorem read_v27 (b : Fin 65536) (h0 : 0 ≤ (x1 (ix1 b)).toInt) (h8 : (x1 (ix1 b)).toInt < 8) (e : Fin 8) (r : Fin 32) :
    Read.val_main_v27 (F := Ideal) x0 x1 x2 x3 x4 x5 (ix3 b e r)
      = (∑ q : Fin 16, clip01 (lin1 x0 x2 x3 b (at16 (selOf x1 b) q)) * x4 (ix2 (at32 e r) q)) + x5 (ix1 (at32 e r)) := by
  have ei : Read.idx_main_v27 (ix3 b e r) = ix2 b (at32 e r) := funext fun a => by
    have hb := b.isLt; have he := e.isLt; have hr := r.isLt
    match a with
    | ⟨0, _⟩ => exact Fin.ext (by show ((b.val * 8 + e.val) * 32 + r.val) / 256 = b.val; omega)
    | ⟨1, _⟩ => exact Fin.ext (by show ((b.val * 8 + e.val) * 32 + r.val) % 256 = 32 * e.val + r.val; omega)
  rw [Read.val_main_v27_apply, ei, read_v26 x0 x1 x2 x3 x4 x5 b h0 h8]

/-- The second gather: the selected expert's 32 second-layer outputs. -/
theorem read_v41 (b : Fin 65536) (h0 : 0 ≤ (x1 (ix1 b)).toInt) (h8 : (x1 (ix1 b)).toInt < 8) (r : Fin 32) :
    Read.val_main_v41 (F := Ideal) x0 x1 x2 x3 x4 x5 (ix2 b r) = lin2 x0 x2 x3 x4 x5 b (selOf x1 b) r :=
  (gather_row_expert gather_S65536x8x32_S65536x2_S65536x32_1_01_n_n_01_1_1132 rfl rfl rfl rfl rfl
    (Read.val_main_v27 (F := Ideal) x0 x1 x2 x3 x4 x5) (Read.val_main_v40 (F := Ideal) x1) b r b (selOf x1 b)
    (start_clamped x1 b h0 h8).1 (start_clamped x1 b h0 h8).2).trans (read_v27 x0 x1 x2 x3 x4 x5 b h0 h8 (selOf x1 b) r)

/-- Clamped. -/
theorem read_v42 (b : Fin 65536) (h0 : 0 ≤ (x1 (ix1 b)).toInt) (h8 : (x1 (ix1 b)).toInt < 8) (r : Fin 32) :
    Read.val_main_v42 (F := Ideal) x0 x1 x2 x3 x4 x5 (ix2 b r) = clip01 (lin2 x0 x2 x3 x4 x5 b (selOf x1 b) r) := by
  have h : Read.val_main_v42 (F := Ideal) x0 x1 x2 x3 x4 x5 (ix2 b r)
      = clip01 (Read.val_main_v41 (F := Ideal) x0 x1 x2 x3 x4 x5 (ix2 b r)) := rfl
  rw [h, read_v41 x0 x1 x2 x3 x4 x5 b h0 h8 r]

/-- Output layer before the reshape: all eight experts' outputs, each on the selected expert's clamped slice. -/
theorem read_v47 (b : Fin 65536) (h0 : 0 ≤ (x1 (ix1 b)).toInt) (h8 : (x1 (ix1 b)).toInt < 8) (e : Fin 8) :
    Read.val_main_v47 (F := Ideal) x0 x1 x2 x3 x4 x5 x6 x7 (ix2 b e)
      = (∑ r : Fin 32, clip01 (lin2 x0 x2 x3 x4 x5 b (selOf x1 b) r) * x6 (ix2 e r)) + x7 (ix1 e) := by
  have e4 : Read.idx_main_v45 (Read.idx_main_v46 (ix2 b e)) = ix1 e := funext fun a => by match a with | ⟨0, _⟩ => rfl
  have el : ∀ r : Fin 32, Read.lidx_main_v44 (ix2 b e) r = ix2 b r := fun r => funext fun a => by
    match a with
    | ⟨0, _⟩ => rfl
    | ⟨1, _⟩ => rfl
  have er : ∀ r : Fin 32, Read.idx_main_v43 (Read.ridx_main_v44 (ix2 b e) r) = ix2 e r := fun r => funext fun a => by
    match a with
    | ⟨0, _⟩ => rfl
    | ⟨1, _⟩ => rfl
  rw [Read.val_main_v47_apply, Read.val_main_v44_apply, Read.val_main_v46_apply, Read.val_main_v45_apply, e4, addf_eq]
  congr 1
  refine Finset.sum_congr rfl fun r _ => ?_
  rw [Read.val_main_v43_apply, el, er, read_v42 x0 x1 x2 x3 x4 x5 b h0 h8 r]

/-- The reshape [65536, 8] → [65536, 8, 1] keeps element (b, e). -/
theorem read_v48 (b : Fin 65536) (h0 : 0 ≤ (x1 (ix1 b)).toInt) (h8 : (x1 (ix1 b)).toInt < 8) (e : Fin 8) (z : Fin 1) :
    Read.val_main_v48 (F := Ideal) x0 x1 x2 x3 x4 x5 x6 x7 (ix3 b e z)
      = (∑ r : Fin 32, clip01 (lin2 x0 x2 x3 x4 x5 b (selOf x1 b) r) * x6 (ix2 e r)) + x7 (ix1 e) := by
  have ei : Read.idx_main_v48 (ix3 b e z) = ix2 b e := funext fun a => by
    have hb := b.isLt; have he := e.isLt; have hz := z.isLt
    match a with
    | ⟨0, _⟩ => exact Fin.ext (by show ((b.val * 8 + e.val) * 1 + z.val) / 8 = b.val; omega)
    | ⟨1, _⟩ => exact Fin.ext (by show ((b.val * 8 + e.val) * 1 + z.val) % 8 = e.val; omega)
  rw [Read.val_main_v48_apply, ei, read_v47 x0 x1 x2 x3 x4 x5 x6 x7 b h0 h8]

/-- The last gather: the selected expert's output. -/
theorem read_v62 (b : Fin 65536) (h0 : 0 ≤ (x1 (ix1 b)).toInt) (h8 : (x1 (ix1 b)).toInt < 8) (z : Fin 1) :
    Read.val_main_v62 (F := Ideal) x0 x1 x2 x3 x4 x5 x6 x7 (ix2 b z) = lin3 x0 x2 x3 x4 x5 x6 x7 b (selOf x1 b) :=
  (gather_row_expert gather_S65536x8x1_S65536x2_S65536x1_1_01_n_n_01_1_111 rfl rfl rfl rfl rfl
    (Read.val_main_v48 (F := Ideal) x0 x1 x2 x3 x4 x5 x6 x7) (Read.val_main_v61 (F := Ideal) x1) b z b (selOf x1 b)
    (start_clamped x1 b h0 h8).1 (start_clamped x1 b h0 h8).2).trans
    (read_v48 x0 x1 x2 x3 x4 x5 x6 x7 b h0 h8 (selOf x1 b) z)

end Layers

/-- With every index word in [0, 8) the reference's result term is the specification G of its arguments. -/
theorem ref_value (x0 : (⟨S65536x1024, .f32⟩ : BufTy).Contents (Elt Ideal)) (x1 : (⟨S65536, .i32⟩ : BufTy).Contents (Elt Ideal))
    (x2 : (⟨S128x1024, .f32⟩ : BufTy).Contents (Elt Ideal)) (x3 : (⟨S128, .f32⟩ : BufTy).Contents (Elt Ideal))
    (x4 : (⟨S256x16, .f32⟩ : BufTy).Contents (Elt Ideal)) (x5 : (⟨S256, .f32⟩ : BufTy).Contents (Elt Ideal))
    (x6 : (⟨S8x32, .f32⟩ : BufTy).Contents (Elt Ideal)) (x7 : (⟨S8, .f32⟩ : BufTy).Contents (Elt Ideal))
    (hr : ∀ b : Fin 65536, 0 ≤ (x1 (ix1 b)).toInt ∧ (x1 (ix1 b)).toInt < 8) :
    Cert.ReferenceIdeal.Read.val_main_v62 (F := Ideal) x0 x1 x2 x3 x4 x5 x6 x7 = Cert.StackSpec.G x0 x1 x2 x3 x4 x5 x6 x7 := by
  funext i
  obtain ⟨b, z, rfl⟩ : ∃ (b : Fin 65536) (z : Fin 1), i = ix2 b z := ⟨i 0, i 1, eq_ix2 i⟩
  exact read_v62 x0 x1 x2 x3 x4 x5 x6 x7 b (hr b).1 (hr b).2 z

end Cert.ReferenceIdeal.RefValue

end
-- ==== Proof.Body.lean ====
/-
  The kernel body read at one lane. Every access is the whole block at offset zero, so the output block is the body's
  arithmetic applied to the eight input blocks. Read at lane `l`: three matrix products into a zero accumulator, each a
  sum over its one contracted axis, a bias row added to each, a clamp into [0, 1] after the first two (the format changes
  are the identity on the extended reals); the third layer's [2048, 8] result transposed; the index row broadcast over the
  eight experts and compared with the expert coordinate, the comparison bit widened and converted to 1 or 0; the
  product of the two summed over the expert axis.
-/
import proofs.«418566_j6262062317931_3_alg».proof.Proof.Gen.KernelIdeal.Frame
import proofs.«418566_j6262062317931_3_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Body

open Cert.KernelIdeal Cert.KernelIdeal.Gen Idealize.ShloMosaic Idealize.ShloMosaic.ValueIdx Cert.StackSpec
open scoped BigOperators

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Every access of the body is the whole block at offset zero, so the output block is the payload of the input blocks. -/
theorem out_eq (x0 : Vec Ideal S2048x1024 .f32) (x1 : Vec Ideal S1x1x2048 .i32) (x2 : Vec Ideal S1024x128 .bf16)
    (x3 : Vec Ideal S128 .f32) (x4 : Vec Ideal S128x256 .bf16) (x5 : Vec Ideal S256 .f32) (x6 : Vec Ideal S256x8 .bf16)
    (x7 : Vec Ideal S8 .f32) :
    Gen.out0_8 (F := Ideal) x0 x1 x2 x3 x4 x5 x6 x7
      = k0_pay1 (F := Ideal) (k0_pay2 x0 x2 x3 x4 x5 x6 x7) (k0_pay3 x1) (iota .tc S8x2048 32 [0] iota_S8x2048_d0_w32) := by
  unfold Gen.out0_8
  rw [View.canon_unit_zero hz3]
  simp only [View.ld_unit_zero (S := S2048x1024) hz2, View.ld_unit_zero (S := S1024x128) hz2,
    View.ld_unit_zero (S := S128x256) hz2, View.ld_unit_zero (S := S256x8) hz2,
    View.ld_unit_zero (S := S128) hz1, View.ld_unit_zero (S := S256) hz1, View.ld_unit_zero (S := S8) hz1,
    View.ld_unit_zero (S := S1x1x2048) hz3]

/-! The operand indices of the product [2048, 1024] × [1024, 128] at output index (r, c) and contraction index k are (r, k) and (k, c). -/
theorem lhs_mm1_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhs_mm1_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_mm1_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_mm1_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The product [2048, 1024] × [1024, 128] accumulated into zero, at (r, c): the sum over k of a(r, k) · b(k, c). -/
theorem mm1_apply (a : FVec Ideal S2048x1024 .bf16) (b : FVec Ideal S1024x128 .bf16) (r : Fin 2048) (c : Fin 128) :
    matmul dot_S2048x1024_S1024x128_S2048x128_1_0_0_1_n_n none a b (constant (F := Ideal) S2048x128 .f32 0x00000000#32) (ix2 r c)
      = ∑ k : Fin 1024, a (ix2 r k) * b (ix2 k c) := by
  refine (Ideal.matmul_constant_zero_apply dot_S2048x1024_S1024x128_S2048x128_1_0_0_1_n_n none a b (ix2 r c)).trans ?_
  rw [← Equiv.sum_comp (ValueIdx.contrEquiv1 dot_S2048x1024_S1024x128_S2048x128_1_0_0_1_n_n 1024 rfl rfl).symm]
  refine Finset.sum_congr rfl fun k _ => ?_
  have hk := ValueIdx.contrEquiv1_symm_val dot_S2048x1024_S1024x128_S2048x128_1_0_0_1_n_n 1024 rfl rfl k
  have el : dot_S2048x1024_S1024x128_S2048x128_1_0_0_1_n_n.lhsIdx (ix2 r c) ((ValueIdx.contrEquiv1 dot_S2048x1024_S1024x128_S2048x128_1_0_0_1_n_n 1024 rfl rfl).symm k) = ix2 r k := funext fun a => Fin.ext (by
    match a with
    | ⟨0, _⟩ => exact lhs_mm1_0 _ _
    | ⟨1, _⟩ => exact (lhs_mm1_1 _ _).trans hk)
  have er : dot_S2048x1024_S1024x128_S2048x128_1_0_0_1_n_n.rhsIdx (ix2 r c) ((ValueIdx.contrEquiv1 dot_S2048x1024_S1024x128_S2048x128_1_0_0_1_n_n 1024 rfl rfl).symm k) = ix2 k c := funext fun a => Fin.ext (by
    match a with
    | ⟨0, _⟩ => exact (rhs_mm1_0 _ _).trans hk
    | ⟨1, _⟩ => exact rhs_mm1_1 _ _)
  rw [el, er]

/-! The operand indices of the product [2048, 128] × [128, 256] at output index (r, c) and contraction index k are (r, k) and (k, c). -/
theorem lhs_mm2_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem lhs_mm2_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
theorem rhs_mm2_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
theorem rhs_mm2_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- The product [2048, 128] × [128, 256] accumulated into zero, at (r, c): the sum over k of a(r, k) · b(k, c). -/
theorem mm2_apply (a : FVec Ideal S2048x128 .bf16) (b : FVec Ideal S128x256 .bf16) (r : Fin 2048) (c : Fin 256) :
    matmul dot_S2048x128_S128x256_S2048x256_1_0_0_1_n_n none a b (constant (F := Ideal) S2048x256 .f32 0x00000000#32) (ix2 r c)
      = ∑ k : Fin 128, a (ix2 r k) * b (ix2 k c) := by
  refine (Ideal.matmul_constant_zero_apply dot_S2048x128_S128x256_S2048x256_1_0_0_1_n_n none a b (ix2 r c)).trans ?_
  rw [← Equiv.sum_comp (ValueIdx.contrEquiv1 dot_S2048x128_S128x256_S2048x256_1_0_0_1_n_n 128 rfl rfl).symm]
  refine Finset.sum_congr rfl fun k _ => ?_
  have hk := ValueIdx.contrEquiv1_symm_val dot_S2048x128_S128x256_S2048x256_1_0_0_1_n_n 128 rfl rfl k
  have el : dot_S2048x128_S128x256_S2048x256_1_0_0_1_n_n.lhsIdx (ix2 r c) ((ValueIdx.contrEquiv1 dot_S2048x128_S128x256_S2048x256_1_0_0_1_n_n 128 rfl rfl).symm k) = ix2 r k := funext fun a => Fin.ext (by
    match a with
    | ⟨0, _⟩ => exact lhs_mm2_0 _ _
    | ⟨1, _⟩ => exact (lhs_mm2_1 _ _).trans hk)
  have er : dot_S2048x128_S128x256_S2048x256_1_0_0_1_n_n.rhsIdx (ix2 r c) ((ValueIdx.contrEquiv1 dot_S2048x128_S128x256_S2048x256_1_0_0_1_n_n 128 rfl rfl).symm k) = ix2 k c := funext fun a => Fin.ext (by
    match a with
    | ⟨0, _⟩ => exact (rhs_mm2_0 _ _).trans hk
    | ⟨1, _⟩ => exact rhs_mm2_1 _ _)
  rw [el, er]

/-! The operand indices of the product [2048, 256] × [256, 8] at output index (r, c) and contraction index k are (r, k) and (k, c). -/
theorem lhs_mm3_0 (i : S2048x8.Idx) (q : dot_S2048x256_S256x8_S2048x8_1_0_0_1_n_n.contr.Idx) :
    (dot_S2048x256_S256x8_S2048x8_1_0_0_1_n_n.lhsIdx i q 0).val = (i 0).val := by
  unfold DotDims.lhsIdx
  rw [dif_neg (show ¬(0 : Fin S2048x256.rank) ∈ dot_S2048x256_S256x8_S2048x8_1_0_0_1_n_n.lhsBatch by decide), dif_pos (show (0 : Fin S2048x256.rank) ∈ dot_S2048x256_S256x8_S2048x8_1_0_0_1_n_n.lhsNonContracting by decide)]
  rfl
theorem lhs_mm3_1 (i : S2048x8.Idx) (q : dot_S2048x256_S256x8_S2048x8_1_0_0_1_n_n.contr.Idx) :
    (dot_S2048x256_S256x8_S2048x8_1_0_0_1_n_n.lhsIdx i q 1).val = (q ⟨0, by decide⟩).val :=
  dot_S2048x256_S256x8_S2048x8_1_0_0_1_n_n.lhsIdx_val_of_single rfl i q
theorem rhs_mm3_0 (i : S2048x8.Idx) (q : dot_S2048x256_S256x8_S2048x8_1_0_0_1_n_n.contr.Idx) :
    (dot_S2048x256_S256x8_S2048x8_1_0_0_1_n_n.rhsIdx i q 0).val = (q ⟨0, by decide⟩).val :=
  dot_S2048x256_S256x8_S2048x8_1_0_0_1_n_n.rhsIdx_val_of_single rfl i q
theorem rhs_mm3_1 (i : S2048x8.Idx) (q : dot_S2048x256_S256x8_S2048x8_1_0_0_1_n_n.contr.Idx) :
    (dot_S2048x256_S256x8_S2048x8_1_0_0_1_n_n.rhsIdx i q 1).val = (i 1).val := by
  unfold DotDims.rhsIdx
  rw [dif_neg (show ¬(1 : Fin S256x8.rank) ∈ dot_S2048x256_S256x8_S2048x8_1_0_0_1_n_n.rhsBatch by decide), dif_pos (show (1 : Fin S256x8.rank) ∈ dot_S2048x256_S256x8_S2048x8_1_0_0_1_n_n.rhsNonContracting by decide)]
  rfl

/-- The product [2048, 256] × [256, 8] accumulated into zero, at (r, c): the sum over k of a(r, k) · b(k, c). -/
theorem mm3_apply (a : FVec Ideal S2048x256 .bf16) (b : FVec Ideal S256x8 .bf16) (r : Fin 2048) (c : Fin 8) :
    matmul dot_S2048x256_S256x8_S2048x8_1_0_0_1_n_n none a b (constant (F := Ideal) S2048x8 .f32 0x00000000#32) (ix2 r c)
      = ∑ k : Fin 256, a (ix2 r k) * b (ix2 k c) := by
  refine (Ideal.matmul_constant_zero_apply dot_S2048x256_S256x8_S2048x8_1_0_0_1_n_n none a b (ix2 r c)).trans ?_
  rw [← Equiv.sum_comp (ValueIdx.contrEquiv1 dot_S2048x256_S256x8_S2048x8_1_0_0_1_n_n 256 rfl rfl).symm]
  refine Finset.sum_congr rfl fun k _ => ?_
  have hk := ValueIdx.contrEquiv1_symm_val dot_S2048x256_S256x8_S2048x8_1_0_0_1_n_n 256 rfl rfl k
  have el : dot_S2048x256_S256x8_S2048x8_1_0_0_1_n_n.lhsIdx (ix2 r c) ((ValueIdx.contrEquiv1 dot_S2048x256_S256x8_S2048x8_1_0_0_1_n_n 256 rfl rfl).symm k) = ix2 r k := funext fun a => Fin.ext (by
    match a with
    | ⟨0, _⟩ => exact lhs_mm3_0 _ _
    | ⟨1, _⟩ => exact (lhs_mm3_1 _ _).trans hk)
  have er : dot_S2048x256_S256x8_S2048x8_1_0_0_1_n_n.rhsIdx (ix2 r c) ((ValueIdx.contrEquiv1 dot_S2048x256_S256x8_S2048x8_1_0_0_1_n_n 256 rfl rfl).symm k) = ix2 k c := funext fun a => Fin.ext (by
    match a with
    | ⟨0, _⟩ => exact (rhs_mm3_0 _ _).trans hk
    | ⟨1, _⟩ => exact rhs_mm3_1 _ _)
  rw [el, er]

/-- A bias row [b] viewed [1, b] and broadcast over the rows reads, at (p, c), the bias at c. -/
theorem bias_apply {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The clamp between the two broadcast bounds followed by the format change (the identity on the extended reals). -/
theorem clip_apply {s : Shape} (v : FVec Ideal s .f32) (i : s.Idx) :
    (truncf .bf16 (minimumf (broadcast s (Scalar.ofBits (F := Ideal) .f32 0x3F800000#32))
      (maximumf (broadcast s (Scalar.ofBits (F := Ideal) .f32 0x00000000#32)) v)) bitsLt_bf16_f32 : FVec Ideal s .bf16) i
      = clip01 (v i) := rfl

/-- First layer at (l, j). -/
theorem layer1_apply (a : FVec Ideal S2048x1024 .bf16) (w : FVec Ideal S1024x128 .bf16) (b : FVec Ideal S128 .f32)
    (l : Fin 2048) (j : Fin 128) :
    addf (matmul dot_S2048x1024_S1024x128_S2048x128_1_0_0_1_n_n none a (shapeCast S1024x128 w shapeCasts_S1024x128_S1024x128)
        (constant (F := Ideal) S2048x128 .f32 0x00000000#32))
      (broadcastTo S2048x128 (shapeCast S1x128 b shapeCasts_S128_S1x128) broadcasts_S1x128_S2048x128) (ix2 l j)
      = (∑ k : Fin 1024, a (ix2 l k) * w (ix2 k j)) + b (ix1 j) := by
  rw [shapeCast_self]
  exact congrArg₂ (· + ·) (mm1_apply a w l j) (bias_apply b _ _ l j)

/-- Second layer at (l, i). -/
theorem layer2_apply (a : FVec Ideal S2048x128 .bf16) (w : FVec Ideal S128x256 .bf16) (b : FVec Ideal S256 .f32)
    (l : Fin 2048) (i : Fin 256) :
    addf (matmul dot_S2048x128_S128x256_S2048x256_1_0_0_1_n_n none a (shapeCast S128x256 w shapeCasts_S128x256_S128x256)
        (constant (F := Ideal) S2048x256 .f32 0x00000000#32))
      (broadcastTo S2048x256 (shapeCast S1x256 b shapeCasts_S256_S1x256) broadcasts_S1x256_S2048x256) (ix2 l i)
      = (∑ j : Fin 128, a (ix2 l j) * w (ix2 j i)) + b (ix1 i) := by
  rw [shapeCast_self]
  exact congrArg₂ (· + ·) (mm2_apply a w l i) (bias_apply b _ _ l i)

/-- Third layer at (l, e). -/
theorem layer3_apply (a : FVec Ideal S2048x256 .bf16) (w : FVec Ideal S256x8 .bf16) (b : FVec Ideal S8 .f32)
    (l : Fin 2048) (e : Fin 8) :
    addf (matmul dot_S2048x256_S256x8_S2048x8_1_0_0_1_n_n none a (shapeCast S256x8 w shapeCasts_S256x8_S256x8)
        (constant (F := Ideal) S2048x8 .f32 0x00000000#32))
      (broadcastTo S2048x8 (shapeCast S1x8 b shapeCasts_S8_S1x8) broadcasts_S1x8_S2048x8) (ix2 l e)
      = (∑ i : Fin 256, a (ix2 l i) * w (ix2 i e)) + b (ix1 e) := by
  rw [shapeCast_self]
  exact congrArg₂ (· + ·) (mm3_apply a w l e) (bias_apply b _ _ l e)

/-- The three stacked layers at expert e, lane l: the transposed third layer's output. -/
theorem pay2_apply (x0 : Vec Ideal S2048x1024 .f32) (x2 : Vec Ideal S1024x128 .bf16) (x3 : Vec Ideal S128 .f32)
    (x4 : Vec Ideal S128x256 .bf16) (x5 : Vec Ideal S256 .f32) (x6 : Vec Ideal S256x8 .bf16) (x7 : Vec Ideal S8 .f32)
    (e : Fin 8) (l : Fin 2048) :
    (k0_pay2 (F := Ideal) x0 x2 x3 x4 x5 x6 x7 (ix2 e l) : EReal)
      = (∑ i : Fin 256, clip01 ((∑ j : Fin 128, clip01 ((∑ k : Fin 1024,
            (x0 (ix2 l k) : EReal) * (x2 (ix2 k j) : EReal)) + (x3 (ix1 j) : EReal)) * (x4 (ix2 j i) : EReal)) + (x5 (ix1 i) : EReal))
          * (x6 (ix2 i e) : EReal)) + (x7 (ix1 e) : EReal) := by
  unfold k0_pay2
  refine (transpose_ix2_apply _ transposes_S2048x8_p1_0_S8x2048 e l).trans ?_
  refine (layer3_apply _ x6 x7 l e).trans ?_
  refine congrArg (fun t : EReal => t + (x7 (ix1 e) : EReal)) (Finset.sum_congr rfl fun i _ =>
    congrArg (fun t : EReal => t * (x6 (ix2 i e) : EReal)) ?_)
  refine (clip_apply _ (ix2 l i)).trans (congrArg clip01 ?_)
  refine (layer2_apply _ x4 x5 l i).trans ?_
  refine congrArg (fun t : EReal => t + (x5 (ix1 i) : EReal)) (Finset.sum_congr rfl fun j _ =>
    congrArg (fun t : EReal => t * (x4 (ix2 j i) : EReal)) ?_)
  refine (clip_apply _ (ix2 l j)).trans (congrArg clip01 ?_)
  exact layer1_apply _ x2 x3 l j

/-- The sum over the expert axis of an [8, 2048] vector, at lane l. -/
theorem lane_sum (src : FVec Ideal S8x2048 .f32) (h : S8x2048.Reduces [0] S2048) (hφ : FKind.Formats .f32)
    (hacc : (0x00000000#32 : BitVec 32) = 0x00000000#32) (l : Fin 2048) :
    multiReduction .add [0] S2048 src 0x00000000#32 h hφ hacc (ix1 l) = ∑ e : Fin 8, src (ix2 e l) := by
  refine (Ideal.multiReduction_add_single src 0x00000000#32 h hφ hacc (ix1 l)).trans ?_
  refine Finset.sum_congr rfl fun e _ => congrArg src ?_
  funext a
  apply Fin.ext
  match a with
  | ⟨0, _⟩ => rfl
  | ⟨1, _⟩ => rfl

/-- The converted, widened comparison bit of a word against expert e's word: 1 where they are equal, 0 elsewhere. -/
theorem onehot_word (w : BitVec 32) (e : Fin 8) :
    (FloatOps.sitofp (F := Ideal) .f32 ((IntOp.cmpi .eq w (BitVec.ofNat 32 e.val)).setWidth 32) : EReal)
      = if w = BitVec.ofNat 32 e.val then (1 : EReal) else 0 := by
  show ((((IntOp.cmpi .eq w (BitVec.ofNat 32 e.val)).setWidth 32).toInt : ℝ) : EReal) = _
  have h1 : ((1#1 : BitVec 1).setWidth 32).toInt = 1 := by decide
  have h0 : ((0#1 : BitVec 1).setWidth 32).toInt = 0 := by decide
  by_cases h : w = BitVec.ofNat 32 e.val
  · have hb : (w == BitVec.ofNat 32 e.val) = true := beq_iff_eq.mpr h
    have hc : IntOp.cmpi .eq w (BitVec.ofNat 32 e.val) = 1#1 := by
      show BitVec.ofBool (w == BitVec.ofNat 32 e.val) = 1#1
      rw [hb]; rfl
    rw [hc, if_pos h, h1]; simp
  · have hb : (w == BitVec.ofNat 32 e.val) = false := beq_eq_false_iff_ne.mpr h
    have hc : IntOp.cmpi .eq w (BitVec.ofNat 32 e.val) = 0#1 := by
      show BitVec.ofBool (w == BitVec.ofNat 32 e.val) = 0#1
      rw [hb]; rfl
    rw [hc, if_neg h, h0]; simp

/-- The index row as the body reads it, at (0, l). -/
theorem pay3_apply (x1 : Vec Ideal S1x1x2048 .i32) (l : Fin 2048) :
    k0_pay3 (F := Ideal) x1 (ix2 (0 : Fin 1) l) = x1 (ix3 (0 : Fin 1) (0 : Fin 1) l) := by
  unfold k0_pay3
  rw [shapeCast_self]
  exact shapeCast_1ab_ab_apply x1 shapeCasts_S1x1x2048_S1x2048 (0 : Fin 1) l

/-- The one-hot factor at (e, l): the index row broadcast over the experts, compared with the expert coordinate. -/
theorem onehot_apply (idx : IVec S1x2048 32) (e : Fin 8) (l : Fin 2048) :
    ((sitofp .f32 (extui 32 (cmpi .eq (broadcastTo S8x2048 idx broadcasts_S1x2048_S8x2048)
        (iota .tc S8x2048 32 [0] iota_S8x2048_d0_w32)) natLt_1_32) : FVec Ideal S8x2048 .f32) (ix2 e l) : EReal)
      = if idx (ix2 (0 : Fin 1) l) = BitVec.ofNat 32 e.val then (1 : EReal) else 0 := by
  have hb : broadcastTo S8x2048 idx broadcasts_S1x2048_S8x2048 (ix2 e l) = idx (ix2 (0 : Fin 1) l) :=
    broadcastTo_1b_ab_apply idx broadcasts_S1x2048_S8x2048 e l
  have hi : iota .tc S8x2048 32 [0] iota_S8x2048_d0_w32 (ix2 e l) = BitVec.ofNat 32 e.val :=
    iota_single_apply .tc S8x2048 32 0 iota_S8x2048_d0_w32 (ix2 e l)
  show (FloatOps.sitofp (F := Ideal) .f32 ((IntOp.cmpi .eq (broadcastTo S8x2048 idx broadcasts_S1x2048_S8x2048 (ix2 e l))
      (iota .tc S8x2048 32 [0] iota_S8x2048_d0_w32 (ix2 e l))).setWidth 32) : EReal) = _
  rw [hb, hi]
  exact onehot_word _ e

/-- The output payload at lane l: the indicator-weighted sum over the experts of the stacked layers' outputs. -/
theorem pay1_apply (v33 : FVec Ideal S8x2048 .f32) (v36 : IVec S1x2048 32) (l : Fin 2048) :
    (k0_pay1 (F := Ideal) v33 v36 (iota .tc S8x2048 32 [0] iota_S8x2048_d0_w32) (ix3 (0 : Fin 1) (0 : Fin 1) l) : EReal)
      = ∑ e : Fin 8, (v33 (ix2 e l) : EReal)
          * (if v36 (ix2 (0 : Fin 1) l) = BitVec.ofNat 32 e.val then (1 : EReal) else 0) := by
  unfold k0_pay1
  refine (shapeCast_ab_1ab_apply _ shapeCasts_S1x2048_S1x1x2048 (0 : Fin 1) (0 : Fin 1) l).trans ?_
  refine (shapeCast_a_1a_apply _ shapeCasts_S2048_S1x2048 (0 : Fin 1) l).trans ?_
  refine (lane_sum _ reduces_S8x2048_S2048 (.inl rfl) rfl l).trans ?_
  refine Finset.sum_congr rfl fun e _ => ?_
  exact congrArg (fun t : EReal => (v33 (ix2 e l) : EReal) * t) (onehot_apply v36 e l)

/-- What the body leaves in the output block, at lane `l`, as a function of the eight input blocks: three matrix
    products with clamps between them over all stacked positions, then the sum over the eight experts weighted by the
    indicator of the row's index word. -/
theorem body_apply (x0 : Vec Ideal S2048x1024 .f32) (x1 : Vec Ideal S1x1x2048 .i32) (x2 : Vec Ideal S1024x128 .bf16)
    (x3 : Vec Ideal S128 .f32) (x4 : Vec Ideal S128x256 .bf16) (x5 : Vec Ideal S256 .f32) (x6 : Vec Ideal S256x8 .bf16)
    (x7 : Vec Ideal S8 .f32) (l : Fin 2048) :
    (Gen.out0_8 (F := Ideal) x0 x1 x2 x3 x4 x5 x6 x7 : S1x1x2048.Idx → EReal) (ix3 (0 : Fin 1) (0 : Fin 1) l)
      = ∑ e : Fin 8, ((∑ i : Fin 256, clip01 ((∑ j : Fin 128, clip01 ((∑ k : Fin 1024,
            (x0 (ix2 l k) : EReal) * (x2 (ix2 k j) : EReal)) + (x3 (ix1 j) : EReal)) * (x4 (ix2 j i) : EReal)) + (x5 (ix1 i) : EReal))
          * (x6 (ix2 i e) : EReal)) + (x7 (ix1 e) : EReal))
        * (if (x1 (ix3 (0 : Fin 1) (0 : Fin 1) l) : BitVec 32) = BitVec.ofNat 32 e.val then (1 : EReal) else 0) := by
  rw [out_eq]
  refine (pay1_apply _ _ l).trans ?_
  refine Finset.sum_congr rfl fun e _ => ?_
  rw [pay2_apply, pay3_apply]

end Cert.KernelIdeal.Body

end
-- ==== Proof.HostVals.lean ====
import proofs.«418566_j6262062317931_3_alg».proof.Proof.Gen.KernelIdeal.Frame
import proofs.«418566_j6262062317931_3_alg».proof.Proof.Spec
import Idealize.ShloMosaic.PureOps.Ideal.Laws
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.HostVals

open Cert.KernelIdeal Cert.KernelIdeal.Gen Idealize.ShloMosaic Idealize.ShloMosaic.TcCoe Idealize.ShloMosaic.ValueIdx Cert.StackSpec

variable (m : (ℓ : Loc nD τ sig) → Buf (Elt Ideal) ℓ)

/-! ## The two arrays as terms over the launched arguments -/

/-- The first weight matrix when the region is entered: `w1` transposed, then narrowed to the 16-bit format. -/
theorem w1t_term (c : Dev nD) :
    @Eq (S1024x128.Idx → EReal) (Gen.V m c main_v3)
      (truncf (F := Ideal) .bf16
        (transpose S1024x128 [1, 0] (m ((c.tc : Thread nD τ).loc main_arg2) : S128x1024.Idx → EReal)
          transposes_S128x1024_S1024x128_1_0) bitsLt_bf16_f32) := by
  dsimp only [Gen.V, Gen.V0]
  simp only [Gen.hostOps0, Gen.hostOps0_1, Gen.hostOps0_2, List.flatten_cons, List.flatten_nil, List.append_nil,
    List.cons_append, List.nil_append]
  after_results_simp

/-- The index words when the region is entered: clamped elementwise into [0, 7] (maximum with a splat 0, then
    minimum with a splat 7), then recast from [65536] to [32, 1, 2048]. -/
theorem idx_term (c : Dev nD) :
    @Eq (S32x1x2048.Idx → BitVec 32) (Gen.V m c main_v1)
      (shapeCast S32x1x2048
        (minsi (broadcastInDim S65536 ![] bcast_S_S65536 (constantI S_ 32 7#32))
          (maxsi (broadcastInDim S65536 ![] bcast_S_S65536 (constantI S_ 32 0#32))
            (m ((c.tc : Thread nD τ).loc main_arg1) : S65536.Idx → BitVec 32)))
        shapeCasts_S65536_S32x1x2048) := by
  dsimp only [Gen.V, Gen.V0]
  simp only [Gen.hostOps0, Gen.hostOps0_1, Gen.hostOps0_2, List.flatten_cons, List.flatten_nil, List.append_nil,
    List.cons_append, List.nil_append]
  after_results_simp
  simp only [StableHlo.TRef.ofBuf, StableHlo.TRef.toBuf, cast_eq, id]
  rfl

/-! ## Read at an index -/

/-- A word that reads signed in [0, 8) is its own clamp into [0, 7]: it is not below 0, so the signed maximum with 0
    keeps it, and 7 is not below it, so the signed minimum with 7 keeps it. -/
theorem clamp_id (w : BitVec 32) (h0 : 0 ≤ w.toInt) (h8 : w.toInt < 8) :
    IntOp.minsi 7#32 (IntOp.maxsi 0#32 w) = w := by
  have z0 : (0#32 : BitVec 32).toInt = 0 := by decide
  have z7 : (7#32 : BitVec 32).toInt = 7 := by decide
  have hmax : IntOp.maxsi 0#32 w = w := by
    have hc : ¬ (w.slt 0#32 = true) := by rw [BitVec.slt_iff_toInt_lt, z0]; omega
    unfold IntOp.maxsi
    rw [if_neg hc]
  rw [hmax]
  have hc : ¬ ((7#32 : BitVec 32).slt w = true) := by rw [BitVec.slt_iff_toInt_lt, z7]; omega
  unfold IntOp.minsi
  rw [if_neg hc]

/-- The first weight matrix as the region finds it: the transpose of `w1`. -/
theorem V_w1t (c : Dev nD) (k : Fin 1024) (j : Fin 128) :
    (Gen.V m c main_v3 : S1024x128.Idx → EReal) (ix2 k j)
      = (m ((c.tc : Thread nD τ).loc main_arg2) : S128x1024.Idx → EReal) (ix2 j k) := by
  refine (congrFun (w1t_term m c) (ix2 k j)).trans ?_
  -- narrowing is the identity on extended reals; the transpose at (k, j) reads its operand at (j, k)
  refine (truncf_apply _ bitsLt_bf16_f32 (ix2 k j)).trans ?_
  exact transpose_apply [1, 0] _ transposes_S128x1024_S1024x128_1_0 (ix2 k j) (ix2 j k) (fun b => match b with
    | ⟨0, _⟩ => rfl
    | ⟨1, _⟩ => rfl)

/-- The index words as the region finds them, tiled [32, 1, 2048]: clamped into [0, 7], which changes nothing when
    they are in [0, 8). -/
theorem V_idx (c : Dev nD) (t : Fin 32) (l : Fin 2048)
    (hr : ∀ b : Fin 65536, 0 ≤ ((m ((c.tc : Thread nD τ).loc main_arg1) : S65536.Idx → BitVec 32) (ix1 b)).toInt
      ∧ ((m ((c.tc : Thread nD τ).loc main_arg1) : S65536.Idx → BitVec 32) (ix1 b)).toInt < 8) :
    (Gen.V m c main_v1 : S32x1x2048.Idx → BitVec 32) (ix3 t (0 : Fin 1) l)
      = (m ((c.tc : Thread nD τ).loc main_arg1) : S65536.Idx → BitVec 32) (ix1 (rowOf t l)) := by
  refine (congrFun (idx_term m c) (ix3 t (0 : Fin 1) l)).trans ?_
  -- the recast keeps the row-major position: (t, 0, l) of [32, 1, 2048] is position 2048 t + l of [65536]
  refine (shapeCast_apply _ shapeCasts_S65536_S32x1x2048 (ix3 t (0 : Fin 1) l) (ix1 (rowOf t l)) ?_).trans ?_
  · rw [Shape.rowMajor_val_one, Shape.rowMajor_val_three]
    show (rowOf t l).val = (t.val * 1 + 0) * 2048 + l.val
    rw [rowOf_val]
    omega
  · -- elementwise: the clamp of the word at that row, which the range hypothesis makes the word itself
    exact clamp_id _ (hr (rowOf t l)).1 (hr (rowOf t l)).2

end Cert.KernelIdeal.HostVals

end
-- ==== Proof.ScatterRead.lean ====
import Idealize.ShloMosaic.PureOps
import Idealize.ShloMosaic.Lib.ValueIdx

namespace Cert.ScatterRead

open Idealize.ShloMosaic

section Fold
variable {α ι κ : Type} [DecidableEq ι]

/-- One overwrite: the array `r` with the value `v n` put at the position `p n`. -/
private def put (p : κ → ι) (v : κ → α) (r : ι → α) (n : κ) : ι → α :=
  fun i' => if i' = p n then v n else r i'

/-- Overwrites at positions other than `i` leave the entry at `i` as it was. -/
private theorem foldl_put_miss (p : κ → ι) (v : κ → α) (i : ι) :
    ∀ (l : List κ) (r : ι → α), (∀ n ∈ l, p n ≠ i) → l.foldl (put p v) r i = r i := by
  intro l
  induction l with
  | nil => intro r _; rfl
  | cons a l ih =>
    intro r h
    rw [List.foldl_cons, ih _ (fun n hn => h n (List.mem_cons_of_mem a hn))]
    have hne : i ≠ p a := fun e => h a List.mem_cons_self e.symm
    simp only [put, if_neg hne]

/-- With `p` injective and the list free of repetition, the entry at `p n₀` ends at `v n₀`: the overwrite of
    `n₀` sets it, and every later overwrite is at another position. -/
private theorem foldl_put_hit (p : κ → ι) (v : κ → α) (hp : Function.Injective p) (n₀ : κ) :
    ∀ (l : List κ) (r : ι → α), l.Nodup → n₀ ∈ l → l.foldl (put p v) r (p n₀) = v n₀ := by
  intro l
  induction l with
  | nil => intro r _ h; exact absurd h List.not_mem_nil
  | cons a l ih =>
    intro r hnd hmem
    rw [List.foldl_cons]
    rcases List.mem_cons.1 hmem with he | hmem'
    · subst he
      rw [foldl_put_miss p v (p n₀) l _
        (fun n hn e => (List.nodup_cons.1 hnd).1 (by rw [← hp e]; exact hn))]
      simp only [put, if_true]
    · exact ih _ (List.nodup_cons.1 hnd).2 hmem'

end Fold

/-- When every update index lands inside the operand, the scatter that keeps the update is a chain of overwrites,
    one for each update index in row-major order. -/
private theorem scatter_eq_foldl_put {α : Type} {s si u : Shape} {w : Nat} (d : ScatterDims s si u) (x : s.Idx → α)
    (idx : IVec si w) (upd : u.Idx → α) (pos : u.Idx → s.Idx) (hpos : ∀ j, d.resultIdx? j idx = some (pos j)) :
    Host.scatter d (fun _ b => b) x idx upd
      = (List.finRange u.numel).foldl
          (put (fun n => pos (u.rowMajor.symm n)) (fun n => upd (u.rowMajor.symm n))) x := by
  unfold Host.scatter
  congr 1
  funext r n i'
  simp only [hpos, put]

/-- A scatter whose body returns the update and whose every update index `j` lands inside the operand, at `pos j`
    with `pos` injective, reads back the update at the position an update index lands on. -/
theorem scatter_set_hit {α : Type} {s si u : Shape} {w : Nat} (d : ScatterDims s si u) (x : s.Idx → α) (idx : IVec si w)
    (upd : u.Idx → α) (pos : u.Idx → s.Idx) (hpos : ∀ j, d.resultIdx? j idx = some (pos j))
    (hinj : Function.Injective pos) (j : u.Idx) :
    Host.scatter d (fun _ b => b) x idx upd (pos j) = upd j := by
  rw [scatter_eq_foldl_put d x idx upd pos hpos]
  have h := foldl_put_hit (fun n => pos (u.rowMajor.symm n)) (fun n => upd (u.rowMajor.symm n))
    (fun a b e => u.rowMajor.symm.injective (hinj e)) (u.rowMajor j) (List.finRange u.numel) x
    (List.nodup_finRange _) (List.mem_finRange _)
  simpa only [Equiv.symm_apply_apply] using h

/-- … and the operand where no update index lands. -/
theorem scatter_set_miss {α : Type} {s si u : Shape} {w : Nat} (d : ScatterDims s si u) (x : s.Idx → α) (idx : IVec si w)
    (upd : u.Idx → α) (pos : u.Idx → s.Idx) (hpos : ∀ j, d.resultIdx? j idx = some (pos j))
    (i : s.Idx) (hi : ∀ j, pos j ≠ i) :
    Host.scatter d (fun _ b => b) x idx upd i = x i := by
  rw [scatter_eq_foldl_put d x idx upd pos hpos]
  exact foldl_put_miss _ _ i _ x (fun n _ => hi _)

end Cert.ScatterRead
-- ==== Proof.HostW2.lean ====
import proofs.«418566_j6262062317931_3_alg».proof.Proof.Gen.KernelIdeal.Frame
import proofs.«418566_j6262062317931_3_alg».proof.Proof.Spec
import proofs.«418566_j6262062317931_3_alg».proof.Proof.ScatterRead
import Idealize.ShloMosaic.PureOps.Ideal.Laws
import Idealize.ShloMosaic.Lib.Pipeline.Value
import Idealize.ShloMosaic.Lib.StableHlo.Run
import Idealize.ShloMosaic.Lib.ValueIdx
import Idealize.ShloMosaic.Lib.ValueLayout
import Idealize.ShloMosaic.Lib.IdealHost

noncomputable section

namespace Cert.KernelIdeal.HostW2

open Cert.KernelIdeal Cert.KernelIdeal.Gen Idealize.ShloMosaic Idealize.ShloMosaic.TcCoe Idealize.ShloMosaic.ValueIdx Cert.StackSpec

/-! The second weight matrix is built by eight scatters into a zero array `[8, 16, 8, 32]`: scatter `k` writes block `k` of
the transposed weights, a 16 × 32 matrix, at the operand positions `(k, q, k, o)`. Each scatter's update indices land at
pairwise distinct positions inside the operand, so it overwrites exactly block `(k, k)`; by induction on `k` the diagonal
blocks `(c, c)`, `c < k`, hold the weights and every other element is still zero. Read as a `[128, 256]` matrix, element
`(16 e + q, 32 e' + r)` is element `(e, q, e', r)`. -/

section Step
variable {α : Type}

abbrev SOp : Shape := ⟨4, ![8, 16, 8, 32]⟩
abbrev SIx : Shape := ⟨1, ![2]⟩
abbrev SUp : Shape := ⟨2, ![16, 32]⟩

abbrev dOf (wf : ScatterDims.WF SOp SIx SUp [0, 1] [0, 2] [0, 2] 0) : ScatterDims SOp SIx SUp :=
  { updateWindowDims := [0, 1], insertedWindowDims := [0, 2], scatterDimsToOperandDims := [0, 2], indexVectorDim := 0, wf := wf }

variable (wf : ScatterDims.WF SOp SIx SUp [0, 1] [0, 2] [0, 2] 0) (j : SUp.Idx) {w : Nat} (idx : IVec SIx w)

/-! The start of the window and the window coordinate of update index `j` on each of the operand's four axes: axes 0 and
2 take the two start words and no window coordinate, axes 1 and 3 start at 0 and take `j`'s two coordinates. -/

theorem start_0 : (dOf wf).start j idx 0 = (idx (ix1 0)).toInt := by
  unfold ScatterDims.start
  rw [dif_pos (show (0 : Fin 4) ∈ ([0, 2] : List (Fin 4)) from by decide)]
  refine congrArg (fun t => (idx t).toInt) ?_
  funext b
  match b with
  | ⟨0, _⟩ => rfl

theorem start_2 : (dOf wf).start j idx 2 = (idx (ix1 1)).toInt := by
  unfold ScatterDims.start
  rw [dif_pos (show (2 : Fin 4) ∈ ([0, 2] : List (Fin 4)) from by decide)]
  refine congrArg (fun t => (idx t).toInt) ?_
  funext b
  match b with
  | ⟨0, _⟩ => rfl

theorem start_1 : (dOf wf).start j idx 1 = 0 := by
  unfold ScatterDims.start
  rw [dif_neg (show (1 : Fin 4) ∉ ([0, 2] : List (Fin 4)) from by decide)]

theorem start_3 : (dOf wf).start j idx 3 = 0 := by
  unfold ScatterDims.start
  rw [dif_neg (show (3 : Fin 4) ∉ ([0, 2] : List (Fin 4)) from by decide)]

theorem window_0 : (dOf wf).window j 0 = 0 := by
  unfold ScatterDims.window
  rw [dif_neg (show (0 : Fin 4) ∉ SOp.kept [0, 2] from by decide)]

theorem window_2 : (dOf wf).window j 2 = 0 := by
  unfold ScatterDims.window
  rw [dif_neg (show (2 : Fin 4) ∉ SOp.kept [0, 2] from by decide)]

theorem window_1 : (dOf wf).window j 1 = (j 0).val := by
  unfold ScatterDims.window
  rw [dif_pos (show (1 : Fin 4) ∈ SOp.kept [0, 2] from by decide)]
  rfl

theorem window_3 : (dOf wf).window j 3 = (j 1).val := by
  unfold ScatterDims.window
  rw [dif_pos (show (3 : Fin 4) ∈ SOp.kept [0, 2] from by decide)]
  rfl

/-- Where update index `j` lands when both start words read `k`: at `(k, j₀, k, j₁)`. -/
def posOf (k : Fin 8) (j : SUp.Idx) : SOp.Idx := ix4 k (j 0 : Fin 16) k (j 1 : Fin 32)

theorem resultIdx_eq (k : Fin 8) (idx : IVec SIx 32)
    (h0 : (idx (ix1 0)).toInt = (k.val : Int)) (h1 : (idx (ix1 1)).toInt = (k.val : Int)) :
    (dOf wf).resultIdx? j idx = some (posOf k j) := by
  have hb : ∀ a, 0 ≤ (dOf wf).start j idx a + (dOf wf).window j a ∧
      (dOf wf).start j idx a + (dOf wf).window j a < SOp.size a := by
    intro a
    match a with
    | ⟨0, _⟩ =>
      show 0 ≤ (dOf wf).start j idx 0 + (dOf wf).window j 0 ∧ (dOf wf).start j idx 0 + (dOf wf).window j 0 < (8 : Nat)
      rw [start_0, window_0, h0]; have := k.isLt; omega
    | ⟨1, _⟩ =>
      show 0 ≤ (dOf wf).start j idx 1 + (dOf wf).window j 1 ∧ (dOf wf).start j idx 1 + (dOf wf).window j 1 < (16 : Nat)
      rw [start_1, window_1]; have := idx2_lt0 j; omega
    | ⟨2, _⟩ =>
      show 0 ≤ (dOf wf).start j idx 2 + (dOf wf).window j 2 ∧ (dOf wf).start j idx 2 + (dOf wf).window j 2 < (8 : Nat)
      rw [start_2, window_2, h1]; have := k.isLt; omega
    | ⟨3, _⟩ =>
      show 0 ≤ (dOf wf).start j idx 3 + (dOf wf).window j 3 ∧ (dOf wf).start j idx 3 + (dOf wf).window j 3 < (32 : Nat)
      rw [start_3, window_3]; have := idx2_lt1 j; omega
  unfold ScatterDims.resultIdx?
  rw [dif_pos hb]
  refine congrArg some (funext fun a => Fin.ext ?_)
  match a with
  | ⟨0, _⟩ =>
    show ((dOf wf).start j idx 0 + (dOf wf).window j 0).toNat = k.val
    rw [start_0, window_0, h0]; omega
  | ⟨1, _⟩ =>
    show ((dOf wf).start j idx 1 + (dOf wf).window j 1).toNat = (j 0).val
    rw [start_1, window_1]; omega
  | ⟨2, _⟩ =>
    show ((dOf wf).start j idx 2 + (dOf wf).window j 2).toNat = k.val
    rw [start_2, window_2, h1]; omega
  | ⟨3, _⟩ =>
    show ((dOf wf).start j idx 3 + (dOf wf).window j 3).toNat = (j 1).val
    rw [start_3, window_3]; omega

theorem posOf_injective (k : Fin 8) : Function.Injective (posOf k) := by
  intro j j' e
  funext a
  match a with
  | ⟨0, _⟩ => exact congrFun e 1
  | ⟨1, _⟩ => exact congrFun e 3

/-- One scatter of a 16 × 32 update at the start words `(k, k)`: block `(k, k)` of the operand becomes the update,
    every other element stays. -/
theorem scatter_step (k : Fin 8) (x : SOp.Idx → α) (idx : IVec SIx 32) (upd : SUp.Idx → α)
    (h0 : (idx (ix1 0)).toInt = (k.val : Int)) (h1 : (idx (ix1 1)).toInt = (k.val : Int))
    (c : Fin 8) (q : Fin 16) (c' : Fin 8) (o : Fin 32) :
    Host.scatter (dOf wf) (fun _ b => b) x idx upd (ix4 c q c' o)
      = if c = k ∧ c' = k then upd (ix2 q o) else x (ix4 c q c' o) := by
  have hpos : ∀ j, (dOf wf).resultIdx? j idx = some (posOf k j) := fun j => resultIdx_eq wf j k idx h0 h1
  by_cases h : c = k ∧ c' = k
  · rw [if_pos h, h.1, h.2]
    exact Cert.ScatterRead.scatter_set_hit (dOf wf) x idx upd (posOf k) hpos (posOf_injective k) (ix2 q o)
  · rw [if_neg h]
    refine Cert.ScatterRead.scatter_set_miss (dOf wf) x idx upd (posOf k) hpos _ fun j e => h ⟨?_, ?_⟩
    · exact (congrFun e 0).symm
    · exact (congrFun e 2).symm

/-- The blocks `(c, c)`, `c < n`, of `x` hold rows of `W` and everything else is `z`; after the scatter of block
    `n` of `W` at `(n, n)` the same holds with `n + 1`. -/
theorem inv_step (n : Nat) (k : Fin 8) (hk : k.val = n) (W : (⟨3, ![8, 16, 32]⟩ : Shape).Idx → α) (z : α)
    (x : SOp.Idx → α) (idx : IVec SIx 32) (upd : SUp.Idx → α)
    (h0 : (idx (ix1 0)).toInt = (k.val : Int)) (h1 : (idx (ix1 1)).toInt = (k.val : Int))
    (hu : ∀ q o, upd (ix2 q o) = W (ix3 k q o))
    (hx : ∀ c q c' o, x (ix4 c q c' o) = if c = c' ∧ c.val < n then W (ix3 c q o) else z)
    (c : Fin 8) (q : Fin 16) (c' : Fin 8) (o : Fin 32) :
    Host.scatter (dOf wf) (fun _ b => b) x idx upd (ix4 c q c' o)
      = if c = c' ∧ c.val < n + 1 then W (ix3 c q o) else z := by
  rw [scatter_step wf k x idx upd h0 h1, hx]
  by_cases hck : c = k ∧ c' = k
  · obtain ⟨rfl, rfl⟩ := hck
    rw [if_pos ⟨rfl, rfl⟩, if_pos ⟨rfl, by omega⟩, hu]
  · rw [if_neg hck]
    refine if_congr ⟨?_, ?_⟩ rfl rfl
    · rintro ⟨e, hlt⟩; exact ⟨e, by omega⟩
    · rintro ⟨e, hlt⟩
      refine ⟨e, ?_⟩
      have hv : c.val ≠ k.val := fun ev => hck ⟨Fin.ext ev, e.symm.trans (Fin.ext ev)⟩
      omega

/-- Block `n` of a stack of eight 16 × 32 matrices, cut out and read as a matrix. -/
theorem upd_read (W : (⟨3, ![8, 16, 32]⟩ : Shape).Idx → α) (n : Nat) (k : Fin 8) (hk : k.val = n)
    (hs : (⟨3, ![8, 16, 32]⟩ : Shape).Slices ![n, 0, 0] ⟨3, ![1, 16, 32]⟩)
    (hc : (⟨3, ![1, 16, 32]⟩ : Shape).ShapeCasts ⟨2, ![16, 32]⟩) (q : Fin 16) (o : Fin 32) :
    shapeCast ⟨2, ![16, 32]⟩ (extractStridedSlice ⟨3, ![1, 16, 32]⟩ ![n, 0, 0] W hs) hc (ix2 q o) = W (ix3 k q o) := by
  refine (shapeCast_1ab_ab_apply _ hc q o).trans ?_
  refine extractStridedSlice_apply _ W hs _ _ fun a => ?_
  match a with
  | ⟨0, _⟩ => show k.val = n + 0; omega
  | ⟨1, _⟩ => show q.val = 0 + q.val; omega
  | ⟨2, _⟩ => show o.val = 0 + o.val; omega

/-- Two one-element vectors laid end to end: entry 0 is the first's … -/
theorem idx_read0 (a b : (⟨1, ![1]⟩ : Shape).Idx → α)
    (hcat : Shape.Concatenates [(⟨1, ![1]⟩ : Shape), ⟨1, ![1]⟩] ⟨1, ![2]⟩ 0) :
    concatenate ⟨1, ![2]⟩ 0 [⟨⟨1, ![1]⟩, a⟩, ⟨⟨1, ![1]⟩, b⟩] hcat (ix1 0) = a (ix1 0) :=
  concatenate_pair_apply_left 0 a b hcat (ix1 0) rfl (ix1 0) fun b => match b with | ⟨0, _⟩ => rfl

/-- … and entry 1 the second's. -/
theorem idx_read1 (a b : (⟨1, ![1]⟩ : Shape).Idx → α)
    (hcat : Shape.Concatenates [(⟨1, ![1]⟩ : Shape), ⟨1, ![1]⟩] ⟨1, ![2]⟩ 0) :
    concatenate ⟨1, ![2]⟩ 0 [⟨⟨1, ![1]⟩, a⟩, ⟨⟨1, ![1]⟩, b⟩] hcat (ix1 1) = b (ix1 0) :=
  concatenate_pair_apply_right 0 a b hcat (ix1 1) rfl rfl (ix1 0)
    (fun b hb => match b, hb with | ⟨0, _⟩, hb => absurd rfl hb) rfl

/-- The weight matrix `[256, 16]` read as eight `[32, 16]` blocks, each transposed: entry `(c, q, o)` is row `32 c + o`,
    column `q`. -/
theorem W_read (w2 : (⟨2, ![256, 16]⟩ : Shape).Idx → α)
    (hc : (⟨2, ![256, 16]⟩ : Shape).ShapeCasts ⟨3, ![8, 32, 16]⟩)
    (ht : (⟨3, ![8, 32, 16]⟩ : Shape).Transposes [0, 2, 1] ⟨3, ![8, 16, 32]⟩) (c : Fin 8) (q : Fin 16) (o : Fin 32) :
    transpose ⟨3, ![8, 16, 32]⟩ [0, 2, 1] (fun i => shapeCast ⟨3, ![8, 32, 16]⟩ w2 hc i) ht (ix3 c q o)
      = w2 (ix2 (at32 c o) q) := by
  refine (transpose_ix3_021_apply _ ht c q o).trans ?_
  refine shapeCast_apply w2 hc _ _ ?_
  rw [Shape.rowMajor_val_two, Shape.rowMajor_val_three]
  show (32 * c.val + o.val) * 16 + q.val = (c.val * 32 + o.val) * 16 + q.val
  omega

/-- The `[8, 16, 8, 32]` array read as a `[128, 256]` matrix: entry `(16 e + q, 32 e' + r)` is entry `(e, q, e', r)`. -/
theorem flat_read (Y : SOp.Idx → α) (hc : SOp.ShapeCasts ⟨2, ![128, 256]⟩) (e : Fin 8) (q : Fin 16) (e' : Fin 8) (r : Fin 32) :
    shapeCast ⟨2, ![128, 256]⟩ Y hc (ix2 (at16 e q) (at32 e' r)) = Y (ix4 e q e' r) := by
  refine shapeCast_apply Y hc _ _ ?_
  rw [Shape.rowMajor_val_two, Shape.rowMajor_val_four]
  show ((e.val * 16 + q.val) * 8 + e'.val) * 32 + r.val = (16 * e.val + q.val) * 256 + (32 * e'.val + r.val)
  omega

/-- Eight scatters in a row, block `k` of `W` at `(k, k)` for `k = 0 … 7`, into an array that holds `z` everywhere:
    the diagonal blocks hold `W`, the rest `z`. -/
theorem nest_read (W : (⟨3, ![8, 16, 32]⟩ : Shape).Idx → α) (z : α) (x0 : SOp.Idx → α)
    (i0 i1 i2 i3 i4 i5 i6 i7 : IVec SIx 32) (u0 u1 u2 u3 u4 u5 u6 u7 : SUp.Idx → α)
    (hx0 : ∀ c q c' o, x0 (ix4 c q c' o) = z)
    (hi0 : (i0 (ix1 0)).toInt = 0 ∧ (i0 (ix1 1)).toInt = 0) (hi1 : (i1 (ix1 0)).toInt = 1 ∧ (i1 (ix1 1)).toInt = 1)
    (hi2 : (i2 (ix1 0)).toInt = 2 ∧ (i2 (ix1 1)).toInt = 2) (hi3 : (i3 (ix1 0)).toInt = 3 ∧ (i3 (ix1 1)).toInt = 3)
    (hi4 : (i4 (ix1 0)).toInt = 4 ∧ (i4 (ix1 1)).toInt = 4) (hi5 : (i5 (ix1 0)).toInt = 5 ∧ (i5 (ix1 1)).toInt = 5)
    (hi6 : (i6 (ix1 0)).toInt = 6 ∧ (i6 (ix1 1)).toInt = 6) (hi7 : (i7 (ix1 0)).toInt = 7 ∧ (i7 (ix1 1)).toInt = 7)
    (hu0 : ∀ q o, u0 (ix2 q o) = W (ix3 0 q o)) (hu1 : ∀ q o, u1 (ix2 q o) = W (ix3 1 q o))
    (hu2 : ∀ q o, u2 (ix2 q o) = W (ix3 2 q o)) (hu3 : ∀ q o, u3 (ix2 q o) = W (ix3 3 q o))
    (hu4 : ∀ q o, u4 (ix2 q o) = W (ix3 4 q o)) (hu5 : ∀ q o, u5 (ix2 q o) = W (ix3 5 q o))
    (hu6 : ∀ q o, u6 (ix2 q o) = W (ix3 6 q o)) (hu7 : ∀ q o, u7 (ix2 q o) = W (ix3 7 q o))
    (c : Fin 8) (q : Fin 16) (c' : Fin 8) (o : Fin 32) :
    Host.scatter (dOf wf) (fun _ b => b) (Host.scatter (dOf wf) (fun _ b => b) (Host.scatter (dOf wf) (fun _ b => b)
      (Host.scatter (dOf wf) (fun _ b => b) (Host.scatter (dOf wf) (fun _ b => b) (Host.scatter (dOf wf) (fun _ b => b)
        (Host.scatter (dOf wf) (fun _ b => b) (Host.scatter (dOf wf) (fun _ b => b) x0 i0 u0) i1 u1) i2 u2) i3 u3) i4 u4) i5 u5)
          i6 u6) i7 u7 (ix4 c q c' o)
      = if c = c' then W (ix3 c q o) else z := by
  have h0 : ∀ c q c' o, x0 (ix4 c q c' o) = if c = c' ∧ c.val < 0 then W (ix3 c q o) else z := fun c q c' o => by
    rw [if_neg (fun h => Nat.not_lt_zero _ h.2)]; exact hx0 c q c' o
  have h1 := inv_step wf 0 0 rfl W z x0 i0 u0 hi0.1 hi0.2 hu0 h0
  have h2 := inv_step wf 1 1 rfl W z _ i1 u1 hi1.1 hi1.2 hu1 h1
  have h3 := inv_step wf 2 2 rfl W z _ i2 u2 hi2.1 hi2.2 hu2 h2
  have h4 := inv_step wf 3 3 rfl W z _ i3 u3 hi3.1 hi3.2 hu3 h3
  have h5 := inv_step wf 4 4 rfl W z _ i4 u4 hi4.1 hi4.2 hu4 h4
  have h6 := inv_step wf 5 5 rfl W z _ i5 u5 hi5.1 hi5.2 hu5 h5
  have h7 := inv_step wf 6 6 rfl W z _ i6 u6 hi6.1 hi6.2 hu6 h6
  have h8 := inv_step wf 7 7 rfl W z _ i7 u7 hi7.1 hi7.2 hu7 h7
  rw [h8 c q c' o]
  exact if_congr ⟨fun h => h.1, fun h => ⟨h, c.isLt⟩⟩ rfl rfl

/-- Both entries of the pair `[a, b]` read the number `n` when both one-element vectors hold a word that reads `n`. -/
theorem idx_pair (a b : (⟨1, ![1]⟩ : Shape).Idx → BitVec 32)
    (hcat : Shape.Concatenates [(⟨1, ![1]⟩ : Shape), ⟨1, ![1]⟩] ⟨1, ![2]⟩ 0) (w : BitVec 32) (n : Int)
    (ha : a (ix1 0) = w) (hb : b (ix1 0) = w) (hw : w.toInt = n) :
    (concatenate ⟨1, ![2]⟩ 0 [⟨⟨1, ![1]⟩, a⟩, ⟨⟨1, ![1]⟩, b⟩] hcat (ix1 0)).toInt = n
      ∧ (concatenate ⟨1, ![2]⟩ 0 [⟨⟨1, ![1]⟩, a⟩, ⟨⟨1, ![1]⟩, b⟩] hcat (ix1 1)).toInt = n :=
  ⟨by rw [idx_read0, ha, hw], by rw [idx_read1, hb, hw]⟩

end Step

variable (m : (ℓ : Loc nD τ sig) → Buf (Elt Ideal) ℓ)

/-- The second weight matrix as the region finds it: block-diagonal, expert `e`'s 16 × 32 block the transpose of rows
    `32 e … 32 e + 31` of `w2`, zero off the diagonal blocks. -/
theorem V_w2bd (c : Dev nD) (e : Fin 8) (q : Fin 16) (e' : Fin 8) (r : Fin 32) :
    (Gen.V m c main_v56 : S128x256.Idx → EReal) (ix2 (at16 e q) (at32 e' r))
      = if e = e' then (m ((c.tc : Thread nD τ).loc main_arg4) : S256x16.Idx → EReal) (ix2 (at32 e' r) q) else (0 : EReal) := by
  dsimp only [Gen.V, Gen.V0]
  simp only [Gen.hostOps0, Gen.hostOps0_1, Gen.hostOps0_2, List.flatten_cons, List.flatten_nil, List.append_nil, List.cons_append, List.nil_append]
  after_results_simp
  refine (truncf_apply (φ := .f32) (ψ := .bf16) _ Facts₀.bitsLt_bf16_f32 _).trans ?_
  refine (flat_read _ Facts₀.shapeCasts_S8x16x8x32_S128x256 e q e' r).trans ?_
  refine (nest_read Facts₀.scatter_S8x16x8x32_S2_S16x32_01_02_02_0_wf
    (transpose S8x16x32 [0, 2, 1]
      (fun i => shapeCast S8x32x16 (m ((c.tc : Thread nD τ).loc main_arg4) : S256x16.Idx → EReal)
        Facts₀.shapeCasts_S256x16_S8x32x16 i) Facts₀.transposes_S8x32x16_S8x16x32_0_2_1)
    (0 : EReal) _ _ _ _ _ _ _ _ _ _ _ _ _ _ _ _ _
    ?hx0 ?hi0 ?hi1 ?hi2 ?hi3 ?hi4 ?hi5 ?hi6 ?hi7 ?hu0 ?hu1 ?hu2 ?hu3 ?hu4 ?hu5 ?hu6 ?hu7 e q e' r).trans ?fin
  case hx0 => exact fun _ _ _ _ => (broadcastInDim_scalar_apply _ _ _).trans Ideal.ofBits_zero_f32
  case hi0 => refine idx_pair _ _ _ 0#32 0 ?_ ?_ (by decide) <;> (after_results_simp; try rfl)
  case hi1 => refine idx_pair _ _ _ 1#32 1 ?_ ?_ (by decide) <;> (after_results_simp; try rfl)
  case hi2 => refine idx_pair _ _ _ 2#32 2 ?_ ?_ (by decide) <;> (after_results_simp; try rfl)
  case hi3 => refine idx_pair _ _ _ 3#32 3 ?_ ?_ (by decide) <;> (after_results_simp; try rfl)
  case hi4 => refine idx_pair _ _ _ 4#32 4 ?_ ?_ (by decide) <;> (after_results_simp; try rfl)
  case hi5 => refine idx_pair _ _ _ 5#32 5 ?_ ?_ (by decide) <;> (after_results_simp; try rfl)
  case hi6 => refine idx_pair _ _ _ 6#32 6 ?_ ?_ (by decide) <;> (after_results_simp; try rfl)
  case hi7 => refine idx_pair _ _ _ 7#32 7 ?_ ?_ (by decide) <;> (after_results_simp; try rfl)
  case hu0 => exact fun q o => upd_read _ 0 0 rfl _ _ q o
  case hu1 => exact fun q o => upd_read _ 1 1 rfl _ _ q o
  case hu2 => exact fun q o => upd_read _ 2 2 rfl _ _ q o
  case hu3 => exact fun q o => upd_read _ 3 3 rfl _ _ q o
  case hu4 => exact fun q o => upd_read _ 4 4 rfl _ _ q o
  case hu5 => exact fun q o => upd_read _ 5 5 rfl _ _ q o
  case hu6 => exact fun q o => upd_read _ 6 6 rfl _ _ q o
  case hu7 => exact fun q o => upd_read _ 7 7 rfl _ _ q o
  case fin =>
    by_cases h : e = e'
    · subst h
      rw [if_pos rfl, if_pos rfl]
      exact W_read _ _ _ e q r
    · rw [if_neg h, if_neg h]

end Cert.KernelIdeal.HostW2

end
-- ==== Proof.HostWo.lean ====
import proofs.«418566_j6262062317931_3_alg».proof.Proof.Gen.KernelIdeal.Frame
import proofs.«418566_j6262062317931_3_alg».proof.Proof.Spec
import proofs.«418566_j6262062317931_3_alg».proof.Proof.ScatterRead
import Idealize.ShloMosaic.PureOps.Ideal.Laws
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.HostWo

open Cert.KernelIdeal Cert.KernelIdeal.Gen Idealize.ShloMosaic Idealize.ShloMosaic.TcCoe Idealize.ShloMosaic.ValueIdx Cert.StackSpec

variable (m : (ℓ : Loc nD τ sig) → Buf (Elt Ideal) ℓ)

/-- The scatter's dimension numbers: the update's two axes are window axes, landing on operand axes 1 and 3; operand
    axes 0 and 2 are inserted, and both take their start from the index vector's two words. -/
abbrev dW : ScatterDims S8x32x8x1 S2 S32x1 := scatter_S8x32x8x1_S2_S32x1_01_02_02_0

/-! ## Start and window coordinate on each of the four operand axes -/

theorem start0 (j : S32x1.Idx) (idx : IVec S2 32) : dW.start j idx 0 = (idx (ix1 0)).toInt := by
  unfold ScatterDims.start
  rw [dif_pos (by decide)]
  refine congrArg (fun i => (idx i).toInt) (funext fun b => ?_)
  match b with
  | ⟨0, _⟩ => rfl

theorem start1 (j : S32x1.Idx) (idx : IVec S2 32) : dW.start j idx 1 = 0 := by
  unfold ScatterDims.start
  rw [dif_neg (by decide)]

theorem start2 (j : S32x1.Idx) (idx : IVec S2 32) : dW.start j idx 2 = (idx (ix1 1)).toInt := by
  unfold ScatterDims.start
  rw [dif_pos (by decide)]
  refine congrArg (fun i => (idx i).toInt) (funext fun b => ?_)
  match b with
  | ⟨0, _⟩ => rfl

theorem start3 (j : S32x1.Idx) (idx : IVec S2 32) : dW.start j idx 3 = 0 := by
  unfold ScatterDims.start
  rw [dif_neg (by decide)]

theorem window0 (j : S32x1.Idx) : dW.window j 0 = 0 := by
  unfold ScatterDims.window
  rw [dif_neg (by decide)]

theorem window1 (j : S32x1.Idx) : dW.window j 1 = (j 0).val := by
  unfold ScatterDims.window
  rw [dif_pos (by decide)]
  rfl

theorem window2 (j : S32x1.Idx) : dW.window j 2 = 0 := by
  unfold ScatterDims.window
  rw [dif_neg (by decide)]

theorem window3 (j : S32x1.Idx) : dW.window j 3 = (j 1).val := by
  unfold ScatterDims.window
  rw [dif_pos (by decide)]
  rfl

/-- The word of an expert number reads back, signed, as that number. -/
theorem toInt_word (k : Fin 8) : (BitVec.ofNat 32 k.val).toInt = (k.val : Int) := by
  revert k; decide

/-- Where update index `(r, z)` lands when both start words are `k`: operand index `(k, r, k, z)`. -/
abbrev posW (k : Fin 8) (j : S32x1.Idx) : S8x32x8x1.Idx :=
  ix4 k (⟨(j 0).val, idx2_lt0 j⟩ : Fin 32) k (⟨(j 1).val, idx2_lt1 j⟩ : Fin 1)

theorem resultIdx_eq (k : Fin 8) (idx : IVec S2 32) (h0 : idx (ix1 0) = BitVec.ofNat 32 k.val)
    (h1 : idx (ix1 1) = BitVec.ofNat 32 k.val) (j : S32x1.Idx) :
    dW.resultIdx? j idx = some (posW k j) := by
  have e0 : dW.start j idx 0 + dW.window j 0 = (k.val : Int) := by rw [start0, window0, h0, toInt_word]; simp
  have e1 : dW.start j idx 1 + dW.window j 1 = ((j 0).val : Int) := by rw [start1, window1]; simp
  have e2 : dW.start j idx 2 + dW.window j 2 = (k.val : Int) := by rw [start2, window2, h1, toInt_word]; simp
  have e3 : dW.start j idx 3 + dW.window j 3 = ((j 1).val : Int) := by rw [start3, window3]; simp
  have hk := k.isLt
  have hj0 := idx2_lt0 j
  have hj1 := idx2_lt1 j
  have hs : ∀ a, 0 ≤ dW.start j idx a + dW.window j a ∧ dW.start j idx a + dW.window j a < S8x32x8x1.size a := by
    intro a
    match a with
    | ⟨0, _⟩ =>
      show 0 ≤ dW.start j idx 0 + dW.window j 0 ∧ dW.start j idx 0 + dW.window j 0 < ((8 : Nat) : Int)
      rw [e0]; omega
    | ⟨1, _⟩ =>
      show 0 ≤ dW.start j idx 1 + dW.window j 1 ∧ dW.start j idx 1 + dW.window j 1 < ((32 : Nat) : Int)
      rw [e1]; omega
    | ⟨2, _⟩ =>
      show 0 ≤ dW.start j idx 2 + dW.window j 2 ∧ dW.start j idx 2 + dW.window j 2 < ((8 : Nat) : Int)
      rw [e2]; omega
    | ⟨3, _⟩ =>
      show 0 ≤ dW.start j idx 3 + dW.window j 3 ∧ dW.start j idx 3 + dW.window j 3 < ((1 : Nat) : Int)
      rw [e3]; omega
  unfold ScatterDims.resultIdx?
  rw [dif_pos hs]
  refine congrArg some (funext fun a => Fin.ext ?_)
  match a with
  | ⟨0, _⟩ => show (dW.start j idx 0 + dW.window j 0).toNat = k.val; rw [e0]; rfl
  | ⟨1, _⟩ => show (dW.start j idx 1 + dW.window j 1).toNat = (j 0).val; rw [e1]; rfl
  | ⟨2, _⟩ => show (dW.start j idx 2 + dW.window j 2).toNat = k.val; rw [e2]; rfl
  | ⟨3, _⟩ => show (dW.start j idx 3 + dW.window j 3).toNat = (j 1).val; rw [e3]; rfl

theorem posW_injective (k : Fin 8) : Function.Injective (posW k) := by
  intro j j' hjj
  have a1 := congrArg Fin.val (congrFun hjj 1)
  have a3 := congrArg Fin.val (congrFun hjj 3)
  funext a
  match a with
  | ⟨0, _⟩ => exact Fin.ext a1
  | ⟨1, _⟩ => exact Fin.ext a3

/-- ONE SCATTER STEP at the start word pair `(k, k)`: the 32 × 1 update replaces the operand's entries `(k, r, k, 0)`
    and every other entry stays. -/
theorem step_apply (k : Fin 8) (x : S8x32x8x1.Idx → EReal) (idx : IVec S2 32) (upd : S32x1.Idx → EReal)
    (h0 : idx (ix1 0) = BitVec.ofNat 32 k.val) (h1 : idx (ix1 1) = BitVec.ofNat 32 k.val)
    (c : Fin 8) (r : Fin 32) (c' : Fin 8) :
    Host.scatter dW (fun _ b => b) x idx upd (ix4 c r c' 0)
      = if c = k ∧ c' = k then upd (ix2 r 0) else x (ix4 c r c' 0) := by
  have hpos : ∀ j, dW.resultIdx? j idx = some (posW k j) := resultIdx_eq k idx h0 h1
  by_cases h : c = k ∧ c' = k
  · rw [if_pos h, h.1, h.2]
    have hp : posW k (ix2 r 0) = ix4 k r k 0 := by
      funext a
      match a with
      | ⟨0, _⟩ => rfl
      | ⟨1, _⟩ => rfl
      | ⟨2, _⟩ => rfl
      | ⟨3, _⟩ => rfl
    rw [← hp]
    exact Cert.ScatterRead.scatter_set_hit dW x idx upd (posW k) hpos (posW_injective k) (ix2 r 0)
  · rw [if_neg h]
    refine Cert.ScatterRead.scatter_set_miss dW x idx upd (posW k) hpos _ fun j hj => h ?_
    exact ⟨(congrFun hj 0).symm, (congrFun hj 2).symm⟩

/-! ## The pieces of the host program that builds the matrix -/

/-- `wo` with a trailing unit axis, `[8, 32, 1]`: entry `(c, r, 0)` is `wo[c, r]`. -/
def woT (wo : S8x32.Idx → EReal) : S8x32x1.Idx → EReal :=
  transpose S8x32x1 [0, 2, 1] (shapeCast S8x1x32 wo shapeCasts_S8x32_S8x1x32) transposes_S8x1x32_S8x32x1_0_2_1

theorem woT_apply (wo : S8x32.Idx → EReal) (c : Fin 8) (r : Fin 32) : woT wo (ix3 c r 0) = wo (ix2 c r) := by
  unfold woT
  refine (transpose_ix3_021_apply _ _ c r 0).trans ?_
  refine shapeCast_apply _ _ _ _ ?_
  rw [Shape.rowMajor_val_two, Shape.rowMajor_val_three]
  show c.val * 32 + r.val = (c.val * 1 + 0) * 32 + r.val
  omega

/-- The index vector of one scatter: two words, each a scalar constant broadcast to one element. -/
def kkW (a b : BitVec 32) : IVec S2 32 :=
  concatenate S2 0 [⟨S1, broadcastInDim S1 ![] bcast_S_S1 (constantI S_ 32 a)⟩,
    ⟨S1, broadcastInDim S1 ![] bcast_S_S1 (constantI S_ 32 b)⟩] concatenates_S1_S1_S2_d0

theorem kkW_0 (a b : BitVec 32) : kkW a b (ix1 0) = a := by
  unfold kkW
  refine (concatenate_pair_apply_left (0 : Fin S2.rank) _ _ concatenates_S1_S1_S2_d0 (ix1 0) rfl (ix1 0) (fun i => ?_)).trans rfl
  match i with
  | ⟨0, _⟩ => rfl

theorem kkW_1 (a b : BitVec 32) : kkW a b (ix1 1) = b := by
  unfold kkW
  refine (concatenate_pair_apply_right (0 : Fin S2.rank) _ _ concatenates_S1_S1_S2_d0 (ix1 1) rfl rfl (ix1 0)
    (fun i hi => absurd (Subsingleton.elim _ _) hi) rfl).trans rfl

/-- The update of one scatter: the slab of `woT` at offsets `off`, its leading unit axis dropped. -/
def updW (T : S8x32x1.Idx → EReal) (off : Fin 3 → Nat) (h : S8x32x1.Slices off S1x32x1) : S32x1.Idx → EReal :=
  shapeCast S32x1 (extractStridedSlice S1x32x1 off T h) shapeCasts_S1x32x1_S32x1

/-- Slab `k` of `woT` is row `k` of `wo`. -/
theorem updW_apply (wo : S8x32.Idx → EReal) (k : Fin 8) (h : S8x32x1.Slices ![k.val, 0, 0] S1x32x1) (r : Fin 32) :
    updW (woT wo) ![k.val, 0, 0] h (ix2 r 0) = wo (ix2 k r) := by
  unfold updW
  refine (shapeCast_1ab_ab_apply _ _ r 0).trans ?_
  refine (extractStridedSlice_apply _ _ h _ (ix3 k r 0) (fun a => ?_)).trans (woT_apply wo k r)
  match a with
  | ⟨0, _⟩ => rfl
  | ⟨1, _⟩ => exact (Nat.zero_add _).symm
  | ⟨2, _⟩ => rfl

/-- One scatter of the program: slab `off` of `T` written at the start words `(a, b)`. -/
def stepW (x : S8x32x8x1.Idx → EReal) (a b : BitVec 32) (T : S8x32x1.Idx → EReal) (off : Fin 3 → Nat)
    (h : S8x32x1.Slices off S1x32x1) : S8x32x8x1.Idx → EReal :=
  Host.scatter dW (fun _ b => b) x (kkW a b) (updW T off h)

/-- The array the scatters start from: all zero. -/
def zerosW : S8x32x8x1.Idx → EReal :=
  broadcastInDim S8x32x8x1 ![] bcast_S_S8x32x8x1 (constant (F := Ideal) S_ .f32 0x00000000#32)

/-- After the eight scatters. -/
def nestW (wo : S8x32.Idx → EReal) : S8x32x8x1.Idx → EReal :=
  stepW (stepW (stepW (stepW (stepW (stepW (stepW (stepW (zerosW)
    0#32 0#32 (woT wo) ![0, 0, 0] slices_S8x32x1_S1x32x1_0_0_0)
    1#32 1#32 (woT wo) ![1, 0, 0] slices_S8x32x1_S1x32x1_1_0_0)
    2#32 2#32 (woT wo) ![2, 0, 0] slices_S8x32x1_S1x32x1_2_0_0)
    3#32 3#32 (woT wo) ![3, 0, 0] slices_S8x32x1_S1x32x1_3_0_0)
    4#32 4#32 (woT wo) ![4, 0, 0] slices_S8x32x1_S1x32x1_4_0_0)
    5#32 5#32 (woT wo) ![5, 0, 0] slices_S8x32x1_S1x32x1_5_0_0)
    6#32 6#32 (woT wo) ![6, 0, 0] slices_S8x32x1_S1x32x1_6_0_0)
    7#32 7#32 (woT wo) ![7, 0, 0] slices_S8x32x1_S1x32x1_7_0_0

/-! ## Filling the diagonal, one expert at a time -/

/-- `x` is FILLED THROUGH `n`: entry `(c, r, c', 0)` is `wo[c, r]` on the diagonal blocks `c = c'` of the experts
    `c < n`, and zero everywhere else. -/
def Filled (wo : S8x32.Idx → EReal) (n : Nat) (x : S8x32x8x1.Idx → EReal) : Prop :=
  ∀ (c : Fin 8) (r : Fin 32) (c' : Fin 8), x (ix4 c r c' 0) = if c = c' ∧ c.val < n then wo (ix2 c r) else 0

theorem filled_zero (wo : S8x32.Idx → EReal) : Filled wo 0 zerosW := by
  intro c r c'
  rw [if_neg (fun h => Nat.not_lt_zero _ h.2)]
  exact Ideal.ofBits_zero_f32

/-- Scatter `k` takes an array filled through `k` to one filled through `k + 1`: it writes block `(k, k)`, which is
    the one block that differs. -/
theorem filled_step (wo : S8x32.Idx → EReal) (k : Fin 8) (x : S8x32x8x1.Idx → EReal) (hx : Filled wo k.val x)
    (h : S8x32x1.Slices ![k.val, 0, 0] S1x32x1) :
    Filled wo (k.val + 1) (stepW x (BitVec.ofNat 32 k.val) (BitVec.ofNat 32 k.val) (woT wo) ![k.val, 0, 0] h) := by
  intro c r c'
  unfold stepW
  rw [step_apply k x _ _ (kkW_0 _ _) (kkW_1 _ _) c r c', updW_apply, hx c r c']
  by_cases h1 : c = k ∧ c' = k
  · rw [if_pos h1, if_pos ⟨h1.1.trans h1.2.symm, by rw [h1.1]; exact Nat.lt_succ_self _⟩, h1.1]
  · rw [if_neg h1]
    by_cases h2 : c = c' ∧ c.val < k.val
    · rw [if_pos h2, if_pos ⟨h2.1, Nat.lt_succ_of_lt h2.2⟩]
    · rw [if_neg h2, if_neg]
      rintro ⟨hcc, hlt⟩
      have hck : c = k := Fin.ext (by
        have : ¬ c.val < k.val := fun hl => h2 ⟨hcc, hl⟩
        omega)
      exact h1 ⟨hck, hcc ▸ hck⟩

theorem nestW_filled (wo : S8x32.Idx → EReal) : Filled wo 8 (nestW wo) :=
  filled_step wo 7 _ (filled_step wo 6 _ (filled_step wo 5 _ (filled_step wo 4 _ (filled_step wo 3 _ (filled_step wo 2 _ (filled_step wo 1 _ (filled_step wo 0 _ (filled_zero wo)
    slices_S8x32x1_S1x32x1_0_0_0)
    slices_S8x32x1_S1x32x1_1_0_0)
    slices_S8x32x1_S1x32x1_2_0_0)
    slices_S8x32x1_S1x32x1_3_0_0)
    slices_S8x32x1_S1x32x1_4_0_0)
    slices_S8x32x1_S1x32x1_5_0_0)
    slices_S8x32x1_S1x32x1_6_0_0)
    slices_S8x32x1_S1x32x1_7_0_0

set_option maxHeartbeats 4000000 in
/-- The array as a term: the eight scatters, flattened to `[256, 8]`, then narrowed (the identity on extended reals). -/
theorem V_eq (c : Dev nD) :
    @Eq (S256x8.Idx → EReal) (Gen.V m c main_v109)
      (truncf (F := Ideal) .bf16
        (shapeCast S256x8 (nestW (m ((c.tc : Thread nD τ).loc main_arg6))) shapeCasts_S8x32x8x1_S256x8) bitsLt_bf16_f32) := by
  dsimp only [Gen.V, Gen.V0]
  simp only [Gen.hostOps0, Gen.hostOps0_1, Gen.hostOps0_2, List.flatten_cons, List.flatten_nil, List.append_nil,
    List.cons_append, List.nil_append]
  after_results_simp
  rfl

/-- The third weight matrix as the region finds it: block-diagonal, expert `e`'s 32 × 1 block row `e` of `wo`. -/
theorem V_wobd (c : Dev nD) (e : Fin 8) (r : Fin 32) (e' : Fin 8) :
    (Gen.V m c main_v109 : S256x8.Idx → EReal) (ix2 (at32 e r) e')
      = if e = e' then (m ((c.tc : Thread nD τ).loc main_arg6) : S8x32.Idx → EReal) (ix2 e' r) else (0 : EReal) := by
  refine (congrFun (V_eq m c) _).trans ?_
  refine (truncf_apply (φ := .f32) (ψ := .bf16) _ bitsLt_bf16_f32 _).trans ?_
  -- row 32 e + r, column e' of the flattened array is entry (e, r, e', 0)
  refine (shapeCast_apply _ _ _ (ix4 e r e' 0) ?_).trans ?_
  · rw [Shape.rowMajor_val_four, Shape.rowMajor_val_two]
    show ((e.val * 32 + r.val) * 8 + e'.val) * 1 + 0 = (32 * e.val + r.val) * 8 + e'.val
    omega
  rw [nestW_filled _ e r e']
  by_cases h : e = e'
  · rw [if_pos h, if_pos ⟨h, e.isLt⟩, h]
  · rw [if_neg h, if_neg (fun h' => h h'.1)]

end Cert.KernelIdeal.HostWo

end
-- ==== Proof.KernelValue.lean ====
import proofs.«418566_j6262062317931_3_alg».proof.Proof.Gen.KernelIdeal.Frame
import proofs.«418566_j6262062317931_3_alg».proof.Proof.Spec
import proofs.«418566_j6262062317931_3_alg».proof.Proof.Body
import proofs.«418566_j6262062317931_3_alg».proof.Proof.HostVals
import proofs.«418566_j6262062317931_3_alg».proof.Proof.HostW2
import proofs.«418566_j6262062317931_3_alg».proof.Proof.HostWo
import Idealize.ShloMosaic.PureOps.Ideal.Laws
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.KValue

open Cert.KernelIdeal Cert.KernelIdeal.Gen Idealize.ShloMosaic Idealize.ShloMosaic.TcCoe Idealize.SL.Sem
open Idealize.ShloMosaic.ValueIdx Cert.StackSpec
open Idealize.ShloMosaic.Pipeline (Dat)
open scoped BigOperators

variable (m : (ℓ : Loc nD τ sig) → Buf (Elt Ideal) ℓ) (ρ : Dev nD → PrngReg)

/-! ## The argument arrays on a core, by name -/

abbrev aX (c : Dev nD) : S65536x1024.Idx → EReal := m ((c.tc : Thread nD τ).loc main_arg0)
abbrev aIdx (c : Dev nD) : S65536.Idx → BitVec 32 := m ((c.tc : Thread nD τ).loc main_arg1)
abbrev aW1 (c : Dev nD) : S128x1024.Idx → EReal := m ((c.tc : Thread nD τ).loc main_arg2)
abbrev aB1 (c : Dev nD) : S128.Idx → EReal := m ((c.tc : Thread nD τ).loc main_arg3)
abbrev aW2 (c : Dev nD) : S256x16.Idx → EReal := m ((c.tc : Thread nD τ).loc main_arg4)
abbrev aB2 (c : Dev nD) : S256.Idx → EReal := m ((c.tc : Thread nD τ).loc main_arg5)
abbrev aWo (c : Dev nD) : S8x32.Idx → EReal := m ((c.tc : Thread nD τ).loc main_arg6)
abbrev aBo (c : Dev nD) : S8.Idx → EReal := m ((c.tc : Thread nD τ).loc main_arg7)

/-- Every index word of core `c`, read signed, lies in [0, 8). -/
def InRange (c : Dev nD) : Prop :=
  ∀ b : Fin 65536, 0 ≤ (aIdx m c (ix1 b)).toInt ∧ (aIdx m c (ix1 b)).toInt < 8

/-! ## The grid: point `t` works on tile `t` -/

/-- Grid point `t` as a tile number. -/
def tileOf (t : Fin cfg0.N) : Fin 32 := ⟨t.val, lt_of_lt_of_eq t.isLt N_0⟩

theorem tileOf_val (t : Fin cfg0.N) : (tileOf t).val = t.val := rfl

/-- The printed index maps over the grid: the rows' window, the index words' window and the result's window are at
    block `t` of their first axis, every weight and bias window at block zero. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 3) = t.val ∧ win0_8.index t (1 : Fin 3) = 0 ∧ win0_8.index t (2 : Fin 3) = 0 :=
  (by decide +kernel : ∀ t : Fin grid0.N, _)

/-! ## Each input block, read at an index -/

/-- Row `l` of the rows' block at point `t` is row `2048 t + l` of `x`. -/
theorem blk_x (c : Dev nD) (t : Fin cfg0.N) (l : Fin 2048) (k : Fin 1024) :
    (iblk m c 0 t : Vec Ideal S2048x1024 .f32) (ix2 l k) = aX m c (ix2 (rowOf (tileOf t) l) k) := by
  obtain ⟨e0, e1, -⟩ := idx_facts t
  unfold iblk
  rw [View.read_apply]
  show V m c main_arg0 _ = _
  rw [V_main_arg0 m c]
  congr 1
  funext a
  apply Fin.ext
  match a with
  | ⟨0, _⟩ => show win0_0.index t 0 * 2048 + 1 * l.val = 2048 * t.val + l.val; rw [e0]; omega
  | ⟨1, _⟩ => show win0_0.index t 1 * 1024 + 1 * k.val = k.val; rw [e1]; omega

/-- Lane `l` of the index words' block at point `t` is lane `l` of tile `t` of the tiled index words. -/
theorem blk_idx (c : Dev nD) (t : Fin cfg0.N) (l : Fin 2048) :
    (iblk m c 1 t : Vec Ideal S1x1x2048 .i32) (ix3 (0 : Fin 1) (0 : Fin 1) l)
      = (V m c main_v1 : S32x1x2048.Idx → BitVec 32) (ix3 (tileOf t) (0 : Fin 1) l) := by
  obtain ⟨-, -, e0, e1, e2, -⟩ := idx_facts t
  unfold iblk
  rw [View.read_apply]
  show V m c main_v1 _ = _
  congr 1
  funext a
  apply Fin.ext
  match a with
  | ⟨0, _⟩ => show win0_1.index t 0 * 1 + 1 * 0 = t.val; rw [e0]; omega
  | ⟨1, _⟩ => show win0_1.index t 1 * 1 + 1 * 0 = 0; rw [e1]
  | ⟨2, _⟩ => show win0_1.index t 2 * 2048 + 1 * l.val = l.val; rw [e2]; omega

/-- The weight and bias windows hold their whole arrays at every point. -/
theorem blk_w1 (c : Dev nD) (t : Fin cfg0.N) (k : Fin 1024) (j : Fin 128) :
    (iblk m c 2 t : Vec Ideal S1024x128 .bf16) (ix2 k j) = (V m c main_v3 : S1024x128.Idx → EReal) (ix2 k j) := by
  obtain ⟨-, -, -, -, -, e0, e1, -⟩ := idx_facts t
  unfold iblk
  rw [View.read_apply]
  show V m c main_v3 _ = _
  congr 1
  funext a
  apply Fin.ext
  match a with
  | ⟨0, _⟩ => show win0_2.index t 0 * 1024 + 1 * k.val = k.val; rw [e0]; omega
  | ⟨1, _⟩ => show win0_2.index t 1 * 128 + 1 * j.val = j.val; rw [e1]; omega

theorem blk_b1 (c : Dev nD) (t : Fin cfg0.N) (j : Fin 128) :
    (iblk m c 3 t : Vec Ideal S128 .f32) (ix1 j) = aB1 m c (ix1 j) := by
  obtain ⟨-, -, -, -, -, -, -, e0, -⟩ := idx_facts t
  unfold iblk
  rw [View.read_apply]
  show V m c main_arg3 _ = _
  rw [V_main_arg3 m c]
  congr 1
  funext a
  apply Fin.ext
  match a with
  | ⟨0, _⟩ => show win0_3.index t 0 * 128 + 1 * j.val = j.val; rw [e0]; omega

theorem blk_w2 (c : Dev nD) (t : Fin cfg0.N) (j : Fin 128) (i : Fin 256) :
    (iblk m c 4 t : Vec Ideal S128x256 .bf16) (ix2 j i) = (V m c main_v56 : S128x256.Idx → EReal) (ix2 j i) := by
  obtain ⟨-, -, -, -, -, -, -, -, e0, e1, -⟩ := idx_facts t
  unfold iblk
  rw [View.read_apply]
  show V m c main_v56 _ = _
  congr 1
  funext a
  apply Fin.ext
  match a with
  | ⟨0, _⟩ => show win0_4.index t 0 * 128 + 1 * j.val = j.val; rw [e0]; omega
  | ⟨1, _⟩ => show win0_4.index t 1 * 256 + 1 * i.val = i.val; rw [e1]; omega

theorem blk_b2 (c : Dev nD) (t : Fin cfg0.N) (i : Fin 256) :
    (iblk m c 5 t : Vec Ideal S256 .f32) (ix1 i) = aB2 m c (ix1 i) := by
  obtain ⟨-, -, -, -, -, -, -, -, -, -, e0, -⟩ := idx_facts t
  unfold iblk
  rw [View.read_apply]
  show V m c main_arg5 _ = _
  rw [V_main_arg5 m c]
  congr 1
  funext a
  apply Fin.ext
  match a with
  | ⟨0, _⟩ => show win0_5.index t 0 * 256 + 1 * i.val = i.val; rw [e0]; omega

theorem blk_wo (c : Dev nD) (t : Fin cfg0.N) (i : Fin 256) (e : Fin 8) :
    (iblk m c 6 t : Vec Ideal S256x8 .bf16) (ix2 i e) = (V m c main_v109 : S256x8.Idx → EReal) (ix2 i e) := by
  obtain ⟨-, -, -, -, -, -, -, -, -, -, -, e0, e1, -⟩ := idx_facts t
  unfold iblk
  rw [View.read_apply]
  show V m c main_v109 _ = _
  congr 1
  funext a
  apply Fin.ext
  match a with
  | ⟨0, _⟩ => show win0_6.index t 0 * 256 + 1 * i.val = i.val; rw [e0]; omega
  | ⟨1, _⟩ => show win0_6.index t 1 * 8 + 1 * e.val = e.val; rw [e1]; omega

theorem blk_bo (c : Dev nD) (t : Fin cfg0.N) (e : Fin 8) :
    (iblk m c 7 t : Vec Ideal S8 .f32) (ix1 e) = aBo m c (ix1 e) := by
  obtain ⟨-, -, -, -, -, -, -, -, -, -, -, -, -, e0, -⟩ := idx_facts t
  unfold iblk
  rw [View.read_apply]
  show V m c main_arg7 _ = _
  rw [V_main_arg7 m c]
  congr 1
  funext a
  apply Fin.ext
  match a with
  | ⟨0, _⟩ => show win0_7.index t 0 * 8 + 1 * e.val = e.val; rw [e0]; omega

/-! ## One lane of one tile -/

/-- Two experts whose words agree are one expert. -/
theorem word_eq_iff (e e' : Fin 8) : BitVec.ofNat 32 e.val = BitVec.ofNat 32 e'.val ↔ e' = e := by
  constructor
  · intro h
    have h' := congrArg BitVec.toNat h
    simp only [BitVec.toNat_ofNat] at h'
    apply Fin.ext
    have := e.isLt
    have := e'.isLt
    omega
  · rintro rfl; rfl

/-- WHAT THE BODY LEAVES at lane `l` of the output block at point `t`: the three layers of the expert that row
    `2048 t + l` selects, on that row. The body's sums run over all stacked positions against the block-diagonal
    matrices the host built; they collapse to the selected expert's slices (`stacked_eq`). -/
theorem tile_value (c : Dev nD) (hr : InRange m c) (t : Fin cfg0.N) (l : Fin 2048) :
    (out0_8 (F := Ideal) (iblk m c 0 t) (iblk m c 1 t) (iblk m c 2 t) (iblk m c 3 t) (iblk m c 4 t) (iblk m c 5 t)
        (iblk m c 6 t) (iblk m c 7 t) : S1x1x2048.Idx → EReal) (ix3 (0 : Fin 1) (0 : Fin 1) l)
      = lin3 (aX m c) (aW1 m c) (aB1 m c) (aW2 m c) (aB2 m c) (aWo m c) (aBo m c) (rowOf (tileOf t) l)
          (selOf (aIdx m c) (rowOf (tileOf t) l)) := by
  refine (Body.body_apply (iblk m c 0 t) (iblk m c 1 t) (iblk m c 2 t) (iblk m c 3 t) (iblk m c 4 t) (iblk m c 5 t)
    (iblk m c 6 t) (iblk m c 7 t) l).trans ?_
  simp only [blk_x m c t, blk_idx m c t, blk_w1 m c t, blk_b1 m c t, blk_w2 m c t, blk_b2 m c t, blk_wo m c t, blk_bo m c t]
  have hoh : ∀ e' : Fin 8,
      (if (V m c main_v1 : S32x1x2048.Idx → BitVec 32) (ix3 (tileOf t) (0 : Fin 1) l) = BitVec.ofNat 32 e'.val then (1 : EReal) else 0)
        = if e' = selOf (aIdx m c) (rowOf (tileOf t) l) then 1 else 0 := by
    intro e'
    have hw : (m ((c.tc : Thread nD τ).loc main_arg1) : S65536.Idx → BitVec 32) (ix1 (rowOf (tileOf t) l))
        = BitVec.ofNat 32 (selOf (aIdx m c) (rowOf (tileOf t) l)).val :=
      idx_eq_sel (aIdx m c) (rowOf (tileOf t) l) (hr (rowOf (tileOf t) l)).1 (hr (rowOf (tileOf t) l)).2
    rw [HostVals.V_idx m c (tileOf t) l hr, hw]
    by_cases he : e' = selOf (aIdx m c) (rowOf (tileOf t) l)
    · rw [if_pos he, if_pos ((word_eq_iff _ _).mpr he)]
    · rw [if_neg he, if_neg (fun h => he ((word_eq_iff _ _).mp h))]
  refine (stacked_eq (fun k => aX m c (ix2 (rowOf (tileOf t) l) k))
    (fun k j => (V m c main_v3 : S1024x128.Idx → EReal) (ix2 k j)) (fun j => aB1 m c (ix1 j))
    (fun j i => (V m c main_v56 : S128x256.Idx → EReal) (ix2 j i)) (fun i => aB2 m c (ix1 i))
    (fun i e => (V m c main_v109 : S256x8.Idx → EReal) (ix2 i e)) (fun e => aBo m c (ix1 e))
    (fun e' => if (V m c main_v1 : S32x1x2048.Idx → BitVec 32) (ix3 (tileOf t) (0 : Fin 1) l) = BitVec.ofNat 32 e'.val then (1 : EReal) else 0)
    (selOf (aIdx m c) (rowOf (tileOf t) l)) (fun p q => aW2 m c (ix2 p q)) (fun e r => aWo m c (ix2 e r))
    (fun e' q e'' r => HostW2.V_w2bd m c e' q e'' r) (fun e' r e'' => HostWo.V_wobd m c e' r e'') hoh).trans ?_
  simp only [lin3, lin2, lin1, HostVals.V_w1t m c]

/-! ## The result array, tile by tile -/

/-- The tiled result array [32, 1, 2048]: lane `l` of tile `t` holds the result of row `2048 t + l`. -/
def Gt (c : Dev nD) : S32x1x2048.Idx → EReal := fun i =>
  lin3 (aX m c) (aW1 m c) (aB1 m c) (aW2 m c) (aB2 m c) (aWo m c) (aBo m c) (rowOf (i 0) (i 2))
    (selOf (aIdx m c) (rowOf (i 0) (i 2)))

/-- Lane `l` of the result's block at point `t` sits at lane `l` of tile `t` of the array. -/
theorem emb_out (t : Fin cfg0.N) (l : Fin 2048) :
    ((cfg0.win 8).blk t).view.emb (ix3 (0 : Fin 1) (0 : Fin 1) l) = ix3 (tileOf t) (0 : Fin 1) l := by
  obtain ⟨-, -, -, -, -, -, -, -, -, -, -, -, -, -, e0, e1, e2⟩ := idx_facts t
  funext a
  apply Fin.ext
  match a with
  | ⟨0, _⟩ => show win0_8.index t 0 * 1 + 1 * 0 = t.val; rw [e0]; omega
  | ⟨1, _⟩ => show win0_8.index t 1 * 1 + 1 * 0 = 0; rw [e1]
  | ⟨2, _⟩ => show win0_8.index t 2 * 2048 + 1 * l.val = l.val; rw [e2]; omega

/-- WHAT POINT `t` WRITES BACK is block `t` of the tiled result array. -/
theorem flushed_eq (c : Dev nD) (hr : InRange m c) (t : Fin cfg0.N) :
    (dats m 0 c).flushed 8 t = ((cfg0.win 8).blk t).view.read (Elt Ideal) (Gt m c) := by
  show (cfg0.win 8).cut (grid0.coords t) ((dats m 0 c).after 8 t) = _
  rw [after0_8]
  have hemb := emb_out t
  have key : ∀ l : Fin 2048,
      (out0_8 (F := Ideal) (iblk m c 0 t) (iblk m c 1 t) (iblk m c 2 t) (iblk m c 3 t) (iblk m c 4 t) (iblk m c 5 t)
        (iblk m c 6 t) (iblk m c 7 t) : S1x1x2048.Idx → EReal) (ix3 (0 : Fin 1) (0 : Fin 1) l)
      = Gt m c (((cfg0.win 8).blk t).view.emb (ix3 (0 : Fin 1) (0 : Fin 1) l)) := by
    intro l
    rw [hemb l]
    exact tile_value m c hr t l
  refine funext fun (j : S1x1x2048.Idx) => ?_
  have hj : j = ix3 (0 : Fin 1) (0 : Fin 1) (j 2) := by
    funext a
    apply Fin.ext
    match a with
    | ⟨0, _⟩ => have h : (j 0).val < 1 := (j 0).isLt; show (j 0).val = 0; omega
    | ⟨1, _⟩ => have h : (j 1).val < 1 := (j 1).isLt; show (j 1).val = 0; omega
    | ⟨2, _⟩ => rfl
  rw [View.read_apply]
  rw [hj]
  exact key (j 2)

/-- Every index of the array is in the block of the point that works on its tile. -/
theorem cover (i : S32x1x2048.Idx) :
    ∃ t : Fin cfg0.N, (cfg0.win 8).flush t = true ∧ i ∈ ((cfg0.win 8).blk t).view.set := by
  obtain ⟨T, z, l, rfl⟩ : ∃ (T : Fin 32) (z : Fin 1) (l : Fin 2048), i = ix3 T z l := ⟨i 0, i 1, i 2, eq_ix3 i⟩
  obtain rfl : z = 0 := Subsingleton.elim _ _
  refine ⟨⟨T.val, lt_of_lt_of_eq T.isLt N_0.symm⟩, flush0_8 _, ?_⟩
  have hi : ix3 T (0 : Fin 1) l
      = ((cfg0.win 8).blk ⟨T.val, lt_of_lt_of_eq T.isLt N_0.symm⟩).view.emb (ix3 (0 : Fin 1) (0 : Fin 1) l) :=
    (emb_out ⟨T.val, lt_of_lt_of_eq T.isLt N_0.symm⟩ l).symm
  rw [hi]
  exact ((cfg0.win 8).blk _).view.emb_mem_set _

/-- THE ARRAY after the region: the tiled result array. -/
theorem final (c : Dev nD) (hr : InRange m c) : (dats m 0 c).arrAt 8 cfg0.N = Gt m c :=
  (dats m 0 c).arrAt_eq_of_cover 8 (Gt m c) (fun t _ => flushed_eq m c hr t) cover

/-! ## The reshape after the region, and the run -/

/-- The program's result: the tiled array reshaped to [65536, 1] is the specification of the argument arrays. -/
theorem tail_value (c : Dev nD) (hr : InRange m c) :
    Pipeline.afterTail₀ cfgs (dats m) 0 (V0 m) [hostOps1] c main_v111
      = G (aX m c) (aIdx m c) (aW1 m c) (aB1 m c) (aW2 m c) (aB2 m c) (aWo m c) (aBo m c) := by
  unfold Pipeline.afterTail₀
  show StableHlo.after hostOps1 _ (Proc.devRef .tc main_v111) = _
  after_results
  have hA : Pipeline.withArrays (cfgs 0).spec c (V0 m c) (fun w => (dats m 0 c).arrAt w (cfgs 0).N)
      (Proc.devRef .tc main_v110) = Gt m c :=
    (Pipeline.withArrays_arr spec0 launch0.win.arr_inj c _ _ 8).trans (final m c hr)
  rw [hA]
  funext i
  obtain ⟨b, z, rfl⟩ : ∃ (b : Fin 65536) (z : Fin 1), i = ix2 b z := ⟨i 0, i 1, eq_ix2 i⟩
  obtain rfl : z = 0 := Subsingleton.elim _ _
  have hb := b.isLt
  have hrow : rowOf (⟨b.val / 2048, by omega⟩ : Fin 32) (⟨b.val % 2048, Nat.mod_lt _ (by decide)⟩ : Fin 2048) = b :=
    Fin.ext (by show 2048 * (b.val / 2048) + b.val % 2048 = b.val; omega)
  show shapeCast S65536x1 (Gt m c) shapeCasts_S32x1x2048_S65536x1 (ix2 b (0 : Fin 1)) = _
  refine (shapeCast_apply (Gt m c) shapeCasts_S32x1x2048_S65536x1 (ix2 b (0 : Fin 1))
    (ix3 (⟨b.val / 2048, by omega⟩ : Fin 32) (0 : Fin 1) (⟨b.val % 2048, Nat.mod_lt _ (by decide)⟩ : Fin 2048)) ?_).trans ?_
  · rw [Shape.rowMajor_val_three, Shape.rowMajor_val_two]
    show ((b.val / 2048) * 1 + 0) * 2048 + b.val % 2048 = b.val * 1 + 0
    omega
  · show lin3 (aX m c) (aW1 m c) (aB1 m c) (aW2 m c) (aB2 m c) (aWo m c) (aBo m c)
        (rowOf (⟨b.val / 2048, by omega⟩ : Fin 32) (⟨b.val % 2048, Nat.mod_lt _ (by decide)⟩ : Fin 2048))
        (selOf (aIdx m c) (rowOf (⟨b.val / 2048, by omega⟩ : Fin 32) (⟨b.val % 2048, Nat.mod_lt _ (by decide)⟩ : Fin 2048)))
      = lin3 (aX m c) (aW1 m c) (aB1 m c) (aW2 m c) (aB2 m c) (aWo m c) (aBo m c) b (selOf (aIdx m c) b)
    rw [hrow]

/-- THE RUN, READ: from any memory whose index words are in range, every weakly fair execution of the program ends
    with the result array at the specification of the argument arrays, and those unchanged. -/
theorem run (hr : ∀ c, InRange m c) :
    θ_run defs (onTc (τ := τ) (main (F := Ideal))) ⟨m, fun _ => 0, ρ⟩ (fun r => ∀ c : Dev nD,
      r.2.mem ((c.tc : Thread nD τ).loc main_v111)
        = G (aX m c) (aIdx m c) (aW1 m c) (aB1 m c) (aW2 m c) (aB2 m c) (aWo m c) (aBo m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v111 (Pipeline.mem_restRefs_of main_v111 (by decide) (by decide))).trans (tail_value m c (hr c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c)))⟩)
    (run_main m ρ)

end Cert.KernelIdeal.KValue

end
-- ==== Proof.lean ====
/-
  Eight stacked experts, three affine layers with a clamp into [0, 1] between them, one expert selected per row.

  For a row `b` with features `x[b, ·]` and expert `e = idx[b]`:
    lin1 b j   = ∑ k, x[b, k] · w1[j, k] + b1[j]                                     (all 128 stacked outputs)
    lin2 b e r = ∑ q < 16, clip (lin1 b (16 e + q)) · w2[32 e + r, q] + b2[32 e + r]
    lin3 b e   = ∑ r < 32, clip (lin2 b e r) · wo[e, r] + bo[e]
  and the result at row `b` is `lin3 b (idx[b])` (`Cert.StackSpec.G`, Proof/Spec.lean).

  The reference computes every expert's first layer, gathers the selected 16-slice, clamps, computes every expert's
  second layer on it, gathers the selected 32-slice, clamps, computes the eight outputs and gathers the selected one
  (Proof/RefValue.lean: each gather reads the operand at the row and at the row's expert). The kernel keeps all 128
  and all 256 stacked values, multiplies by block-diagonal second and third weight matrices whose off-diagonal expert
  blocks are zero (built before the launch by eight scatters each: Proof/HostW2.lean, Proof/HostWo.lean), and selects
  once, at the end, by the sum over experts weighted by the indicator of the row's index word (Proof/Body.lean). On
  the extended reals a product with zero is zero and sums may be regrouped, so the block-diagonal sums collapse to
  the selected expert's blocks and the indicator-weighted sum to the selected term (`Cert.StackSpec.stacked_eq`);
  no finiteness is used. Rows are worked 2048 at a time; tile `t`, lane `l` is row `2048 t + l`
  (Proof/KernelValue.lean).

  The two programs treat an index word outside [0, 8) differently (a negative word counts from the end in the
  reference and is clamped to 0 by the kernel), so the statement carries the precondition that every index word is in
  [0, 8) (Proof/PreDecode.lean reads it off the printed predicate); under it the kernel's clamp and the reference's
  wrap-around and gather clamp are all the identity.
-/
import proofs.«418566_j6262062317931_3_alg».proof.Defs
import proofs.«418566_j6262062317931_3_alg».proof.Proof.Gen.Kernel
import proofs.«418566_j6262062317931_3_alg».proof.Proof.Gen.Kernel.Skeleton
import proofs.«418566_j6262062317931_3_alg».proof.Proof.Gen.Kernel.Launch
import proofs.«418566_j6262062317931_3_alg».proof.Proof.Gen.Kernel.Points
import proofs.«418566_j6262062317931_3_alg».proof.Proof.Gen.Kernel.Frame
import proofs.«418566_j6262062317931_3_alg».proof.Proof.Gen.KernelIdeal
import proofs.«418566_j6262062317931_3_alg».proof.Proof.Gen.KernelIdeal.Skeleton
import proofs.«418566_j6262062317931_3_alg».proof.Proof.Gen.KernelIdeal.Launch
import proofs.«418566_j6262062317931_3_alg».proof.Proof.Gen.KernelIdeal.Points
import proofs.«418566_j6262062317931_3_alg».proof.Proof.Gen.KernelIdeal.Frame
import proofs.«418566_j6262062317931_3_alg».proof.Proof.Gen.ReferenceIdeal
import proofs.«418566_j6262062317931_3_alg».proof.Proof.Gen.Pre_finite_inputs
import proofs.«418566_j6262062317931_3_alg».proof.Proof.Gen.ReferenceIdeal.Run
import proofs.«418566_j6262062317931_3_alg».proof.Proof.Gen.ReferenceIdeal.Read
import proofs.«418566_j6262062317931_3_alg».proof.Proof.Spec
import proofs.«418566_j6262062317931_3_alg».proof.Proof.PreDecode
import proofs.«418566_j6262062317931_3_alg».proof.Proof.RefValue
import proofs.«418566_j6262062317931_3_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read over the extended reals. -/
theorem preserves : Cert.preserves_Kernel_KernelIdeal := trivial

/-- Both programs end with the result array at `G` of the argument arrays: the kernel by its run read tile by tile,
    the reference by its run read stage by stage, the index words in [0, 8) by the precondition. -/
theorem algebraic : Cert.algebraic_KernelIdeal_ReferenceIdeal := by
  intro m ρ m' ρ' hpre hagree
  have hr : ∀ c, Cert.KernelIdeal.KValue.InRange m c := fun c b =>
    Cert.PreDecode.idx_range _ _ _ _ _ _ _ _ (hpre c) b
  refine ⟨_, Cert.KernelIdeal.KValue.run m ρ hr, ?_⟩
  refine (θ_run Cert.ReferenceIdeal.defs _ _).mono (fun _ h c => ⟨(h c).1.trans ?_, (h c).2⟩)
    (Cert.ReferenceIdeal.Value.run (F := Ideal) m' ρ')
  have ha := hagree c
  rw [ha.1, ha.2.1, ha.2.2.1, ha.2.2.2.1, ha.2.2.2.2.1, ha.2.2.2.2.2.1, ha.2.2.2.2.2.2.1, ha.2.2.2.2.2.2.2]
  exact (Cert.ReferenceIdeal.Read.val_main_v62_eq (F := Ideal) _ _ _ _ _ _ _ _).trans
    (Cert.ReferenceIdeal.RefValue.ref_value _ _ _ _ _ _ _ _ (hr c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
